-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1000x128 : Shape := ⟨2, ![1000, 128]⟩
abbrev S1x128 : Shape := ⟨2, ![1, 128]⟩
abbrev S100000x64 : Shape := ⟨2, ![100000, 64]⟩
abbrev S1000x64 : Shape := ⟨2, ![1000, 64]⟩
abbrev S1x64 : Shape := ⟨2, ![1, 64]⟩

abbrev nBuf : Space → Nat
  | .hbm => 84
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .i32⟩
  | .hbm, ⟨14, _⟩ => ⟨S1700000, .i32⟩
  | .hbm, ⟨15, _⟩ => ⟨S_, .i32⟩
  | .hbm, ⟨16, _⟩ => ⟨S100000, .i32⟩
  | .hbm, ⟨17, _⟩ => ⟨S1700000x1, .i32⟩
  | .hbm, ⟨18, _⟩ => ⟨S100000, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x128, .f32⟩
  | .hbm, ⟨76, _⟩ => ⟨S1700000x1, .f32⟩
  | .hbm, ⟨77, _⟩ => ⟨S1700000x128, .f32⟩
  | .hbm, ⟨78, _⟩ => ⟨S1700000x128, .f32⟩
  | .hbm, ⟨79, _⟩ => ⟨S_, .f32⟩
  | .hbm, ⟨80, _⟩ => ⟨S100000x128, .f32⟩
  | .hbm, ⟨81, _⟩ => ⟨S1700000x1, .i32⟩
  | .hbm, ⟨82, _⟩ => ⟨S100000x128, .f32⟩
  | .hbm, ⟨83, _⟩ => ⟨S100000x64, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S128x64, .f32⟩
  | .local _ .vmem, ⟨9, _⟩ => ⟨S64, .f32⟩
  | .local _ .vmem, ⟨10, _⟩ => ⟨S1000x64, .f32⟩
  | .local _ .vmem, ⟨11, _⟩ => ⟨S1000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S1000x128_S128x128_S1000x128_1_0_0_1_n_n_wf : DotDims.WF S1000x128 S128x128 S1000x128 [1] [0] [0] [1] [] []
  dot_S1000x128_S128x64_S1000x64_1_0_0_1_n_n_wf : DotDims.WF S1000x128 S128x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S100000x128.size a
  hwx0_3 : ∀ i : grid0.Coords, EltTy.bits .f32 = 32 ∨ (Rect.block (s := S100000x128) S1000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S100000x128.size a
  hwx1_0 : ∀ i : grid1.Coords, EltTy.bits .f32 = 32 ∨ (Rect.block (s := S100000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x64.size a ≤ S100000x64.size a
  hwx1_3 : ∀ i : grid1.Coords, EltTy.bits .f32 = 32 ∨ (Rect.block (s := S100000x64) S1000x64.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf

abbrev win0_0 : Pipeline.Window sig grid0 :=
  Pipeline.Window.ofSpec (Memref.whole main_v45) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v59) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v60) S1000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x1, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibReal.lean ====
/-
  Finite reals among the extended reals. At the ideal float instance a value is an extended real;
  the laws of real arithmetic (a variance as a mean of squares minus the squared mean, say) hold
  of the FINITE ones only. This module names the predicate "is the coercion of a real", shows it
  closed under the ideal operations a kernel and its reference are built from (sum, difference,
  product, finite sums, quotient by a nonzero real, exponential, maximum and its folds), and reads
  the four f32 words a program spells for 0, 524288, +∞ and -∞.
-/
import Idealize.ShloMosaic.PureOps.Ideal
import Idealize.ShloMosaic.PureOps.Ideal.Laws
import Mathlib.Data.EReal.Operations
import Mathlib.Data.EReal.Inv
import Mathlib.Data.Finset.Fold
import Mathlib.Algebra.BigOperators.Group.Finset.Basic
import Mathlib.Analysis.SpecialFunctions.Exp

noncomputable section

namespace Cert.LibReal

open Idealize.ShloMosaic
open scoped BigOperators

/-- `x` is a finite real: the image of some `r : ℝ` in the extended reals. -/
def IsReal (x : EReal) : Prop := ∃ r : ℝ, x = (r : EReal)

/-- `x` is a positive finite real. -/
def IsPosReal (x : EReal) : Prop := ∃ r : ℝ, 0 < r ∧ x = (r : EReal)

/-! ## The predicate -/

/-- The image of a real is a finite real. -/
theorem isReal_coe (r : ℝ) : IsReal (r : EReal) := ⟨r, rfl⟩

/-- Zero is a finite real. -/
theorem isReal_zero : IsReal 0 := ⟨0, EReal.coe_zero.symm⟩

/-- One is a finite real. -/
theorem isReal_one : IsReal 1 := ⟨1, EReal.coe_one.symm⟩

/-- A finite real is not `-∞`. -/
theorem IsReal.ne_bot {x : EReal} (hx : IsReal x) : x ≠ ⊥ := by
  obtain ⟨r, rfl⟩ := hx; exact EReal.coe_ne_bot r

/-- A finite real is not `+∞`. -/
theorem IsReal.ne_top {x : EReal} (hx : IsReal x) : x ≠ ⊤ := by
  obtain ⟨r, rfl⟩ := hx; exact EReal.coe_ne_top r

/-- The finite reals are exactly the extended reals other than the two infinities. -/
theorem isReal_iff {x : EReal} : IsReal x ↔ x ≠ ⊥ ∧ x ≠ ⊤ := by
  constructor
  · intro hx; exact ⟨hx.ne_bot, hx.ne_top⟩
  · rintro ⟨hb, ht⟩
    induction x using EReal.rec with
    | bot => exact absurd rfl hb
    | top => exact absurd rfl ht
    | coe r => exact ⟨r, rfl⟩

/-- A positive finite real is a finite real. -/
theorem IsPosReal.isReal {x : EReal} (hx : IsPosReal x) : IsReal x := by
  obtain ⟨r, _, rfl⟩ := hx; exact ⟨r, rfl⟩

/-- A positive finite real is above zero in the order of the extended reals. -/
theorem IsPosReal.pos {x : EReal} (hx : IsPosReal x) : 0 < x := by
  obtain ⟨r, hr, rfl⟩ := hx; exact EReal.coe_pos.mpr hr

/-- A positive finite real is not zero. -/
theorem IsPosReal.ne_zero {x : EReal} (hx : IsPosReal x) : x ≠ 0 := hx.pos.ne'

/-- The image of a positive real is a positive finite real. -/
theorem isPosReal_coe {r : ℝ} (hr : 0 < r) : IsPosReal (r : EReal) := ⟨r, hr, rfl⟩

/-! ## Sum, difference, product, negation -/

/-- The sum of two finite reals is a finite real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two finite reals is a finite real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite reals is a finite real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a finite real is a finite real. -/
theorem IsReal.neg {x : EReal} (hx : IsReal x) : IsReal (-x) := by
  obtain ⟨a, rfl⟩ := hx; exact ⟨-a, (EReal.coe_neg a).symm⟩

/-- The sum of two positive finite reals is a positive finite real. -/
theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩

/-- The product of two positive finite reals is a positive finite real. -/
theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩

/-! ## Finite sums -/

/-- The coercion of the reals into the extended reals commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A finite sum of extended reals that are termwise the images of reals is the image of the real sum. -/
theorem sum_eq_coe_sum {ι : Type*} (s : Finset ι) (f : ι → EReal) (g : ι → ℝ)
    (h : ∀ i ∈ s, f i = (g i : EReal)) : ∑ i ∈ s, f i = ((∑ i ∈ s, g i : ℝ) : EReal) := by
  rw [coe_finset_sum]; exact Finset.sum_congr rfl h

/-- A finite sum of finite reals is a finite real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A sum over a finite type of finite reals is a finite real. -/
theorem IsReal.sum_univ {ι : Type*} [Fintype ι] (f : ι → EReal) (h : ∀ i, IsReal (f i)) :
    IsReal (∑ i, f i) :=
  IsReal.sum Finset.univ f fun i _ => h i

/-- A finite sum, over a nonempty index set, of positive finite reals is a positive finite real. -/
theorem IsPosReal.sum {ι : Type*} (s : Finset ι) (hs : s.Nonempty) (f : ι → EReal)
    (h : ∀ i ∈ s, IsPosReal (f i)) : IsPosReal (∑ i ∈ s, f i) := by
  classical
  induction s using Finset.induction_on with
  | empty => exact absurd hs Finset.not_nonempty_empty
  | insert a s ha ih =>
    rw [Finset.sum_insert ha]
    rcases s.eq_empty_or_nonempty with rfl | hne
    · rw [Finset.sum_empty, add_zero]; exact h a (Finset.mem_insert_self _ _)
    · exact (h a (Finset.mem_insert_self _ _)).add (ih hne fun i hi => h i (Finset.mem_insert_of_mem hi))

/-- A sum over a nonempty finite type of positive finite reals is a positive finite real, hence not zero. -/
theorem IsPosReal.sum_univ {ι : Type*} [Fintype ι] [Nonempty ι] (f : ι → EReal) (h : ∀ i, IsPosReal (f i)) :
    IsPosReal (∑ i, f i) :=
  IsPosReal.sum Finset.univ Finset.univ_nonempty f fun i _ => h i

/-! ## The ideal quotient -/

/-- The ideal quotient of two reals with a nonzero divisor is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The ideal quotient of a finite real by a nonzero real is a finite real. -/
theorem IsReal.div_coe {x : EReal} (hx : IsReal x) {b : ℝ} (hb : b ≠ 0) : IsReal (Ideal.div x (b : EReal)) := by
  obtain ⟨a, rfl⟩ := hx; exact ⟨a / b, div_coe_coe a hb⟩

/-- The ideal quotient of a finite real by a nonzero finite real is a finite real. -/
theorem IsReal.div {x y : EReal} (hx : IsReal x) (hy : IsReal y) (hy0 : y ≠ 0) : IsReal (Ideal.div x y) := by
  obtain ⟨b, rfl⟩ := hy
  exact hx.div_coe (EReal.coe_ne_zero.mp hy0)

/-- The ideal quotient of a finite real by a positive finite real is a finite real. -/
theorem IsReal.div_pos {x y : EReal} (hx : IsReal x) (hy : IsPosReal y) : IsReal (Ideal.div x y) :=
  hx.div hy.isReal hy.ne_zero

/-! ## The ideal exponential -/

/-- The ideal exponential of a finite real is a positive finite real. -/
theorem IsReal.exp_pos {x : EReal} (hx : IsReal x) : IsPosReal (Ideal.exp x) := by
  obtain ⟨a, rfl⟩ := hx; exact ⟨Real.exp a, Real.exp_pos a, Ideal.exp_coe a⟩

/-- The ideal exponential of a finite real is a finite real. -/
theorem IsReal.exp {x : EReal} (hx : IsReal x) : IsReal (Ideal.exp x) := hx.exp_pos.isReal

/-! ## Maximum, minimum, and a fold of the maximum from `-∞` -/

/-- The maximum of two finite reals is a finite real. -/
theorem IsReal.max {x y : EReal} (hx : IsReal x) (hy : IsReal y) : IsReal (max x y) := by
  rcases max_choice x y with h | h <;> rw [h] <;> assumption

/-- The minimum of two finite reals is a finite real. -/
theorem IsReal.min {x y : EReal} (hx : IsReal x) (hy : IsReal y) : IsReal (min x y) := by
  rcases min_choice x y with h | h <;> rw [h] <;> assumption

/-- A fold of the maximum from `-∞` over finite reals is `-∞` or a finite real, and a finite real as soon as
    the index set is nonempty. The operation is any one that IS the maximum (the order's `max`, or the ideal
    instance's `maximumf`, which carry different commutativity and associativity witnesses). -/
theorem fold_max_bot_aux {ι : Type*} (op : EReal → EReal → EReal) [Std.Commutative op] [Std.Associative op]
    (hop : ∀ x y, op x y = Max.max x y) (f : ι → EReal) (s : Finset ι) (h : ∀ i ∈ s, IsReal (f i)) :
    (s.fold op ⊥ f = ⊥ ∨ IsReal (s.fold op ⊥ f)) ∧ (s.Nonempty → IsReal (s.fold op ⊥ f)) := by
  classical
  induction s using Finset.induction_on with
  | empty => exact ⟨Or.inl Finset.fold_empty, fun hne => absurd hne Finset.not_nonempty_empty⟩
  | insert a s ha ih =>
    have hr : IsReal ((insert a s).fold op ⊥ f) := by
      rw [Finset.fold_insert ha, hop]
      rcases (ih fun i hi => h i (Finset.mem_insert_of_mem hi)).1 with hb | hb
      · rw [hb, max_eq_left bot_le]; exact h a (Finset.mem_insert_self _ _)
      · exact (h a (Finset.mem_insert_self _ _)).max hb
    exact ⟨Or.inr hr, fun _ => hr⟩

/-- The maximum of a nonempty finite family of finite reals, folded from `-∞`, is a finite real. -/
theorem IsReal.fold_max_bot {ι : Type*} (op : EReal → EReal → EReal) [Std.Commutative op] [Std.Associative op]
    (hop : ∀ x y, op x y = Max.max x y) (s : Finset ι) (hs : s.Nonempty) (f : ι → EReal)
    (h : ∀ i ∈ s, IsReal (f i)) : IsReal (s.fold op ⊥ f) :=
  (fold_max_bot_aux op hop f s h).2 hs

/-- The same for the order's own `max`. -/
theorem IsReal.fold_max {ι : Type*} (s : Finset ι) (hs : s.Nonempty) (f : ι → EReal)
    (h : ∀ i ∈ s, IsReal (f i)) : IsReal (s.fold Max.max ⊥ f) :=
  IsReal.fold_max_bot Max.max (fun _ _ => rfl) s hs f h

/-- The same for the ideal instance's `maximumf`, at any format. -/
theorem IsReal.fold_maximumf {φ : FTy} {ι : Type*} (s : Finset ι) (hs : s.Nonempty) (f : ι → Ideal φ)
    (h : ∀ i ∈ s, IsReal (f i)) :
    IsReal (s.fold (FloatOps.maximumf (F := Ideal) (φ := φ)) (⊥ : EReal) f) :=
  IsReal.fold_max_bot (FloatOps.maximumf (F := Ideal) (φ := φ)) (fun _ _ => rfl) s hs f h

/-- A fold of the maximum from a finite real over finite reals is a finite real, whatever the index set. -/
theorem IsReal.fold_max_of_isReal {ι : Type*} (op : EReal → EReal → EReal) [Std.Commutative op] [Std.Associative op]
    (hop : ∀ x y, op x y = Max.max x y) (s : Finset ι) (f : ι → EReal) {b : EReal} (hb : IsReal b)
    (h : ∀ i ∈ s, IsReal (f i)) : IsReal (s.fold op b f) := by
  classical
  induction s using Finset.induction_on with
  | empty => rw [Finset.fold_empty]; exact hb
  | insert a s ha ih =>
    rw [Finset.fold_insert ha, hop]
    exact (h a (Finset.mem_insert_self _ _)).max (ih fun i hi => h i (Finset.mem_insert_of_mem hi))

/-- Every member of the family is at most the fold of the maximum over it. -/
theorem le_fold_max {ι : Type*} (op : EReal → EReal → EReal) [Std.Commutative op] [Std.Associative op]
    (hop : ∀ x y, op x y = Max.max x y) (s : Finset ι) (f : ι → EReal) (b : EReal) {i : ι} (hi : i ∈ s) :
    f i ≤ s.fold op b f := by
  classical
  induction s using Finset.induction_on with
  | empty => exact absurd hi (Finset.notMem_empty i)
  | insert a s ha ih =>
    rw [Finset.fold_insert ha, hop]
    rcases Finset.mem_insert.mp hi with rfl | hi'
    · exact le_max_left _ _
    · exact (ih hi').trans (le_max_right _ _)

/-! ## Absolute value below `+∞` -/

/-- An extended real whose absolute value `max x (-x)` is below `+∞` is a finite real. -/
theorem isReal_of_abs_lt_top {x : EReal} (h : Max.max x (-x) < ⊤) : IsReal x := by
  induction x using EReal.rec with
  | bot => rw [EReal.neg_bot, max_eq_right bot_le] at h; exact absurd h (lt_irrefl _)
  | top => rw [max_eq_left le_top] at h; exact absurd h (lt_irrefl _)
  | coe r => exact ⟨r, rfl⟩

/-! ## Four f32 words -/

/-- The f32 word `0x00000000` denotes the real `0`. -/
theorem ofBits_zero : Ideal.ofBits .f32 0x00000000#32 = ((0 : ℝ) : EReal) := by
  rw [Ideal.ofBits_zero_f32, EReal.coe_zero]

/-- The f32 word `0x00000000` denotes a finite real. -/
theorem isReal_ofBits_zero : IsReal (Ideal.ofBits .f32 0x00000000#32) := ⟨0, ofBits_zero⟩

/-- The f32 word `0x49000000` denotes the real `524288 = 2^19`. -/
theorem ofBits_524288 : Ideal.ofBits .f32 0x49000000#32 = ((524288 : ℝ) : EReal) := by
  simp [Ideal.ofBits, Ideal.ieee, -EReal.coe_mul]; norm_num

/-- The real `524288` is not zero. -/
theorem real_524288_ne_zero : (524288 : ℝ) ≠ 0 := by norm_num

/-- The f32 word `0x7F800000` denotes `+∞`. -/
theorem ofBits_pos_inf : Ideal.ofBits .f32 0x7F800000#32 = ⊤ := by
  simp [Ideal.ofBits, Ideal.ieee]

/-- The f32 word `0xFF800000` denotes `-∞`. -/
theorem ofBits_neg_inf : Ideal.ofBits .f32 0xFF800000#32 = ⊥ := by
  simp [Ideal.ofBits, Ideal.ieee]

end Cert.LibReal

end
-- ==== Proof.Agg.lean ====
/-
  The algebra of one graph-convolution layer, over abstract finite index types and the extended reals.

  An edge `e` carries a source row `row e`, possibly a target row `tgt e` (an edge whose target lies outside
  the node range lands nowhere) and a weight `nrm e`. The AGGREGATE of a node-feature matrix `X` is, at node `i`
  and feature `k`, the sum over the edges landing on `i` of `X (row e) k * nrm e`. A DENSE layer is
  `X · W + b`. The law proved here is that aggregating commutes with the matrix product: aggregating the rows of
  `X · W` is multiplying the aggregate of `X` by `W`. It is distributivity and an exchange of two finite sums, so
  it holds of FINITE reals (the extended reals are not a ring at the infinities).
-/
import proofs.«402495_j66915590472502_4_alg».proof.Proof.LibReal
import Mathlib.Algebra.BigOperators.Ring.Finset

noncomputable section

namespace Cert.Agg

open Cert.LibReal
open scoped BigOperators

variable {E N K J : Type} [Fintype E] [Fintype K] [DecidableEq N]

/-- The weighted aggregate of the rows of `X`: at node `i`, feature `k`, the sum over the edges whose target is `i`
    of the source row's entry times the edge's weight. -/
def agg (tgt : E → Option N) (row : E → N) (nrm : E → EReal) (X : N → K → EReal) (i : N) (k : K) : EReal :=
  ∑ e ∈ Finset.univ.filter (fun e => tgt e = some i), X (row e) k * nrm e

/-- The dense layer `X · W + b` at node `i`, output feature `j`. -/
def dense (X : N → K → EReal) (W : K → J → EReal) (b : J → EReal) (i : N) (j : J) : EReal :=
  (∑ k, X i k * W k j) + b j

/-- An aggregate of finite reals with finite weights is a finite real. -/
theorem isReal_agg (tgt : E → Option N) (row : E → N) {nrm : E → EReal} {X : N → K → EReal}
    (hX : ∀ i k, IsReal (X i k)) (hn : ∀ e, IsReal (nrm e)) (i : N) (k : K) : IsReal (agg tgt row nrm X i k) := by
  unfold agg
  exact IsReal.sum _ _ fun e _ => (hX (row e) k).mul (hn e)

/-- A dense layer of finite reals is a finite real. -/
theorem isReal_dense {X : N → K → EReal} {W : K → J → EReal} {b : J → EReal}
    (hX : ∀ i k, IsReal (X i k)) (hW : ∀ k j, IsReal (W k j)) (hb : ∀ j, IsReal (b j)) (i : N) (j : J) :
    IsReal (dense X W b i j) := by
  unfold dense
  exact (IsReal.sum_univ _ fun k => (hX i k).mul (hW k j)).add (hb j)

/-- AGGREGATING COMMUTES WITH THE MATRIX PRODUCT, on finite reals: the aggregate of the rows of `X · W` is the
    aggregate of `X` times `W`. -/
theorem agg_matmul (tgt : E → Option N) (row : E → N) {nrm : E → EReal} {X : N → K → EReal} {W : K → J → EReal}
    (hX : ∀ i k, IsReal (X i k)) (hW : ∀ k j, IsReal (W k j)) (hn : ∀ e, IsReal (nrm e)) (i : N) (j : J) :
    agg tgt row nrm (fun i j => ∑ k, X i k * W k j) i j = ∑ k, agg tgt row nrm X i k * W k j := by
  choose x hx using hX
  choose w hw using hW
  choose n hn' using hn
  unfold agg
  -- the left side is the image of a real double sum
  have hL : ∑ e ∈ Finset.univ.filter (fun e => tgt e = some i), (∑ k, X (row e) k * W k j) * nrm e
      = ((∑ e ∈ Finset.univ.filter (fun e => tgt e = some i), (∑ k, x (row e) k * w k j) * n e : ℝ) : EReal) := by
    apply sum_eq_coe_sum
    intro e _
    rw [sum_eq_coe_sum Finset.univ (fun k => X (row e) k * W k j) (fun k => x (row e) k * w k j)
      (fun k _ => by rw [hx, hw, ← EReal.coe_mul]), hn', ← EReal.coe_mul]
  -- so is the right side
  have hR : ∑ k, (∑ e ∈ Finset.univ.filter (fun e => tgt e = some i), X (row e) k * nrm e) * W k j
      = ((∑ k, (∑ e ∈ Finset.univ.filter (fun e => tgt e = some i), x (row e) k * n e) * w k j : ℝ) : EReal) := by
    apply sum_eq_coe_sum
    intro k _
    rw [sum_eq_coe_sum (Finset.univ.filter (fun e => tgt e = some i)) (fun e => X (row e) k * nrm e)
      (fun e => x (row e) k * n e) (fun e _ => by rw [hx, hn', ← EReal.coe_mul]), hw, ← EReal.coe_mul]
  rw [hL, hR]
  congr 1
  -- in the reals: distribute, exchange the two sums, and commute the factors
  simp only [Finset.sum_mul]
  rw [Finset.sum_comm]
  refine Finset.sum_congr rfl fun k _ => Finset.sum_congr rfl fun e _ => ?_
  ring

/-- The same with the bias: the reference's layer (product, aggregate, bias) is the kernel's (aggregate, then the
    dense layer). -/
theorem agg_matmul_add_bias (tgt : E → Option N) (row : E → N) {nrm : E → EReal} {X : N → K → EReal} {W : K → J → EReal}
    (b : J → EReal)
    (hX : ∀ i k, IsReal (X i k)) (hW : ∀ k j, IsReal (W k j)) (hn : ∀ e, IsReal (nrm e)) (i : N) (j : J) :
    agg tgt row nrm (fun i j => ∑ k, X i k * W k j) i j + b j = dense (agg tgt row nrm X) W b i j := by
  unfold dense; rw [agg_matmul tgt row hX hW hn]

end Cert.Agg

end
-- ==== Proof.Decode.lean ====
/-
  Reading a row gather and a row scatter-add at an index.

  A node-feature matrix has shape [N, C]; an edge list of E edges comes as an [E, 1] column of 32-bit words. The
  ROW GATHER of the matrix at the column is the [E, C] matrix whose row `e` is the matrix's row at the word of edge
  `e` read signed and clamped into the node range (a gather clamps its start index). The ROW SCATTER-ADD of an
  [E, C] matrix of updates into an [N, C] operand adds row `e` of the updates to the operand's row at the word of
  edge `e` read signed, when that is a node, and drops it otherwise (a scatter does not clamp). Both are stated here
  for any dimension numbers of that kind, by their fields, so that a printed record meets them by `rfl`.
-/
import Idealize.ShloMosaic.PureOps.Ideal
import Idealize.ShloMosaic.Lib.ValueIdx

noncomputable section

namespace Cert.Decode

open Idealize.ShloMosaic Idealize.ShloMosaic.ValueIdx
open scoped BigOperators

/-- An [E, 1] column of 32-bit words: one start index per edge. -/
abbrev Col (E : Nat) : Type := IVec (⟨2, ![E, 1]⟩ : Shape) 32

/-- Edge `e`'s word, read as a signed integer. -/
def startOf {E : Nat} (idx : Col E) (e : Fin E) : Int := (idx (ix2 e (0 : Fin 1))).toInt

/-- The row a gather reads for edge `e`: its word read signed and clamped into `[0, N − 1]`. -/
def rowOf (N : Nat) (hN : 0 < N) {E : Nat} (idx : Col E) (e : Fin E) : Fin N :=
  ⟨min (startOf idx e).toNat (N - 1), by omega⟩

/-- The row a scatter lands edge `e` on: its word read signed, when that is a row; none otherwise. -/
def tgtOf (N : Nat) {E : Nat} (idx : Col E) (e : Fin E) : Option (Fin N) :=
  if h : 0 ≤ startOf idx e ∧ startOf idx e < (N : Int) then some ⟨(startOf idx e).toNat, by omega⟩ else none

/-- THE ROW GATHER READ AT (e, k): the operand's row `rowOf … e`, column `k`. -/
theorem gather_rows {α : Type} {N E C : Nat} (hN : 0 < N)
    (d : GatherDims (⟨2, ![N, C]⟩ : Shape) (⟨2, ![E, 1]⟩ : Shape) (⟨2, ![E, C]⟩ : Shape))
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : Col E) (e : Fin E) (k : Fin C) :
    Host.gather d x idx (ix2 e k) = x (ix2 (rowOf N hN idx e) k) := by
  unfold Host.gather
  congr 1
  funext a
  apply Fin.ext
  have hb : ∀ a : Fin 2, a ∉ d.operandBatchingDims := by intro a; rw [hob]; exact List.not_mem_nil
  -- the result's batch axes are [0]: a batch axis reads the edge coordinate
  have hbd : ∀ X : Fin 2, X ∈ d.batchDims → ((ix2 e k) X).val = e.val := by
    intro X hX
    have hX' : X ∈ (⟨2, ![E, C]⟩ : Shape).kept d.offsetDims := hX
    rw [hoff] at hX'
    simp only [Shape.kept, List.mem_filter, List.mem_singleton, decide_eq_true_eq] at hX'
    have h1 := hX'.2
    have hX0 : X = 0 := by omega
    subst hX0; rfl
  -- its offset axes are [1]: an offset axis reads the feature coordinate
  have hod : ∀ X : Fin 2, X ∈ d.offsetDims → ((ix2 e k) X).val = k.val := by
    intro X hX
    rw [hoff] at hX
    have hX1 : X = 1 := List.mem_singleton.mp hX
    subst hX1; rfl
  match a with
  | ⟨0, h0⟩ =>
    have hk : (⟨0, h0⟩ : Fin 2) ∉ d.sKept := by rw [GatherDims.mem_sKept, hcoll]; simp
    have hm : (⟨0, h0⟩ : Fin 2) ∈ d.startIndexMap := by rw [hsim]; exact List.mem_singleton.mpr rfl
    have hsl : d.sliceSizes ⟨0, h0⟩ = 1 := d.slice_collapsed _ (by rw [hcoll]; exact List.mem_singleton.mpr rfl)
    have hsi : d.siIdx (ix2 e k) ⟨List.idxOf (⟨0, h0⟩ : Fin 2) d.startIndexMap, List.idxOf_lt_length_iff.2 hm⟩
        = ix2 e (0 : Fin 1) := by
      funext b
      apply Fin.ext
      match b with
      | ⟨0, _⟩ =>
        unfold GatherDims.siIdx
        rw [dif_neg (by rw [hivd]; simp)]
        unfold GatherDims.siCoord
        simp only [Fin.val_cast]
        exact hbd _ (List.getElem_mem _)
      | ⟨1, _⟩ =>
        unfold GatherDims.siIdx
        rw [dif_pos (by rw [hivd])]
        show List.idxOf (⟨0, h0⟩ : Fin 2) d.startIndexMap = 0
        rw [hsim]; simp
    simp only [GatherDims.operandIdx, GatherDims.batchCoord_eq_zero _ _ _ (hb _), GatherDims.offCoord_eq_zero _ _ _ hk,
      Nat.add_zero, GatherDims.start, dif_pos hm]
    rw [hsi, hsl]
    rfl
  | ⟨1, h1⟩ =>
    have hk : (⟨1, h1⟩ : Fin 2) ∈ d.sKept := by rw [GatherDims.mem_sKept, hcoll, hob]; simp
    have hm : (⟨1, h1⟩ : Fin 2) ∉ d.startIndexMap := by rw [hsim]; simp
    simp only [GatherDims.operandIdx, GatherDims.batchCoord_eq_zero _ _ _ (hb _),
      Nat.add_zero, GatherDims.start, dif_neg hm, Nat.zero_add, GatherDims.offCoord, dif_pos hk]
    exact hod _ (List.getElem_mem _)

/-- THE ROW SCATTER-ADD READ AT (i, k), at the ideal instance: the operand's entry plus the sum, over the edges
    landing on row `i`, of the updates' entry at that edge and column `k`. -/
theorem scatterAdd_rows {N E C : Nat}
    (d : ScatterDims (⟨2, ![N, C]⟩ : Shape) (⟨2, ![E, 1]⟩ : Shape) (⟨2, ![E, C]⟩ : Shape))
    (huw : d.updateWindowDims = [1]) (hiw : d.insertedWindowDims = [0]) (hsd : d.scatterDimsToOperandDims = [0])
    (hivd : d.indexVectorDim = 1)
    (x : (⟨2, ![N, C]⟩ : Shape).Idx → EReal) (idx : Col E) (upd : (⟨2, ![E, C]⟩ : Shape).Idx → EReal)
    (i : Fin N) (k : Fin C) :
    Ideal.hostScatterAdd d x idx upd (ix2 i k)
      = x (ix2 i k) + ∑ e ∈ Finset.univ.filter (fun e : Fin E => tgtOf N idx e = some i), upd (ix2 e k) := by
  unfold Ideal.hostScatterAdd
  congr 1
  -- the updates' scatter axes are [0]: a scatter axis reads the edge coordinate
  have hus : ∀ (e : Fin E) (k' : Fin C) (X : Fin 2), X ∈ d.uScatter → ((ix2 e k') X).val = e.val := by
    intro e k' X hX
    have hX' : X ∈ (⟨2, ![E, C]⟩ : Shape).kept d.updateWindowDims := hX
    rw [huw] at hX'
    simp only [Shape.kept, List.mem_filter, List.mem_singleton, decide_eq_true_eq] at hX'
    have h1 := hX'.2
    have hX0 : X = 0 := by omega
    subst hX0; rfl
  -- their window axes are [1]: a window axis reads the feature coordinate
  have hwd : ∀ (e : Fin E) (k' : Fin C) (X : Fin 2), X ∈ d.updateWindowDims → ((ix2 e k') X).val = k'.val := by
    intro e k' X hX
    rw [huw] at hX
    have hX1 : X = 1 := List.mem_singleton.mp hX
    subst hX1; rfl
  -- on the row axis: the start is the edge's word read signed, the window coordinate is 0 (an inserted axis)
  have hA0 : ∀ (e : Fin E) (k' : Fin C),
      d.start (ix2 e k') idx 0 + (d.window (ix2 e k') 0 : Int) = startOf idx e := by
    intro e k'
    have hm : (0 : Fin 2) ∈ d.scatterDimsToOperandDims := by rw [hsd]; exact List.mem_singleton.mpr rfl
    have hsi : d.siIdx (ix2 e k') ⟨List.idxOf (0 : Fin 2) d.scatterDimsToOperandDims, List.idxOf_lt_length_iff.2 hm⟩
        = ix2 e (0 : Fin 1) := by
      funext b
      apply Fin.ext
      match b with
      | ⟨0, _⟩ =>
        unfold ScatterDims.siIdx
        rw [dif_neg (by rw [hivd]; simp)]
        unfold ScatterDims.siCoord
        simp only [Fin.val_cast]
        exact hus _ _ _ (List.getElem_mem _)
      | ⟨1, _⟩ =>
        unfold ScatterDims.siIdx
        rw [dif_pos (by rw [hivd])]
        show List.idxOf (0 : Fin 2) d.scatterDimsToOperandDims = 0
        rw [hsd]; simp
    have hk : (0 : Fin 2) ∉ d.sKept := by
      simp [ScatterDims.sKept, Shape.kept, hiw]
    unfold ScatterDims.start ScatterDims.window
    rw [dif_pos hm, dif_neg hk, hsi]
    simp only [Nat.cast_zero, add_zero]
    rfl
  -- on the feature axis: the start is 0 (the map does not name it), the window coordinate is the feature
  have hA1 : ∀ (e : Fin E) (k' : Fin C),
      d.start (ix2 e k') idx 1 + (d.window (ix2 e k') 1 : Int) = (k'.val : Int) := by
    intro e k'
    have hm : (1 : Fin 2) ∉ d.scatterDimsToOperandDims := by rw [hsd]; simp
    have hk : (1 : Fin 2) ∈ d.sKept := by
      simp [ScatterDims.sKept, Shape.kept, hiw]
    unfold ScatterDims.start ScatterDims.window
    rw [dif_neg hm, dif_pos hk, zero_add]
    exact congrArg Nat.cast (hwd _ _ _ (List.getElem_mem _))
  -- an update entry (e, k') lands on (i, k) exactly when k' = k and edge e's target row is i
  have key : ∀ (e : Fin E) (k' : Fin C),
      d.resultIdx? (ix2 e k') idx = some (ix2 i k) ↔ k' = k ∧ tgtOf N idx e = some i := by
    intro e k'
    unfold ScatterDims.resultIdx? tgtOf
    constructor
    · intro h
      by_cases hall : ∀ a, 0 ≤ d.start (ix2 e k') idx a + (d.window (ix2 e k') a : Int)
          ∧ d.start (ix2 e k') idx a + (d.window (ix2 e k') a : Int) < ((⟨2, ![N, C]⟩ : Shape).size a : Nat)
      · rw [dif_pos hall] at h
        have hf := Option.some.inj h
        have h0 : (d.start (ix2 e k') idx 0 + (d.window (ix2 e k') 0 : Int)).toNat = i.val :=
          congrArg Fin.val (congrFun hf 0)
        have h1 : (d.start (ix2 e k') idx 1 + (d.window (ix2 e k') 1 : Int)).toNat = k.val :=
          congrArg Fin.val (congrFun hf 1)
        have hb0 : 0 ≤ d.start (ix2 e k') idx 0 + (d.window (ix2 e k') 0 : Int)
            ∧ d.start (ix2 e k') idx 0 + (d.window (ix2 e k') 0 : Int) < (N : Int) := hall 0
        rw [hA0] at h0 hb0
        rw [hA1] at h1
        rw [dif_pos hb0]
        exact ⟨Fin.ext (by omega), congrArg some (Fin.ext h0)⟩
      · rw [dif_neg hall] at h
        exact absurd h (by simp)
    · rintro ⟨rfl, ht⟩
      by_cases hc : 0 ≤ startOf idx e ∧ startOf idx e < (N : Int)
      · rw [dif_pos hc] at ht
        have hi : (startOf idx e).toNat = i.val := congrArg Fin.val (Option.some.inj ht)
        have hall : ∀ a, 0 ≤ d.start (ix2 e k') idx a + (d.window (ix2 e k') a : Int)
            ∧ d.start (ix2 e k') idx a + (d.window (ix2 e k') a : Int) < ((⟨2, ![N, C]⟩ : Shape).size a : Nat) := by
          intro a
          match a with
          | ⟨0, _⟩ =>
            show 0 ≤ d.start (ix2 e k') idx 0 + (d.window (ix2 e k') 0 : Int)
              ∧ d.start (ix2 e k') idx 0 + (d.window (ix2 e k') 0 : Int) < (N : Int)
            rw [hA0]; exact hc
          | ⟨1, _⟩ =>
            show 0 ≤ d.start (ix2 e k') idx 1 + (d.window (ix2 e k') 1 : Int)
              ∧ d.start (ix2 e k') idx 1 + (d.window (ix2 e k') 1 : Int) < (C : Int)
            rw [hA1]
            have := k'.isLt
            omega
        rw [dif_pos hall]
        congr 1
        funext a
        apply Fin.ext
        match a with
        | ⟨0, _⟩ =>
          show (d.start (ix2 e k') idx 0 + (d.window (ix2 e k') 0 : Int)).toNat = i.val
          rw [hA0]; exact hi
        | ⟨1, _⟩ =>
          show (d.start (ix2 e k') idx 1 + (d.window (ix2 e k') 1 : Int)).toNat = k'.val
          rw [hA1]; omega
      · rw [dif_neg hc] at ht
        exact absurd ht (by simp)
  -- so the sum over the landing update entries is the sum over the landing edges, through e ↦ (e, k)
  refine Finset.sum_bij' (fun j _ => (j 0 : Fin E)) (fun e _ => ix2 e k) ?_ ?_ ?_ ?_ ?_
  · intro j hj
    obtain ⟨e, k', rfl⟩ : ∃ (e : Fin E) (k' : Fin C), j = ix2 e k' := ⟨j 0, j 1, eq_ix2 j⟩
    exact Finset.mem_filter.2 ⟨Finset.mem_univ _, ((key e k').1 (Finset.mem_filter.1 hj).2).2⟩
  · intro e he
    exact Finset.mem_filter.2 ⟨Finset.mem_univ _, (key e k).2 ⟨rfl, (Finset.mem_filter.1 he).2⟩⟩
  · intro j hj
    obtain ⟨e, k', rfl⟩ : ∃ (e : Fin E) (k' : Fin C), j = ix2 e k' := ⟨j 0, j 1, eq_ix2 j⟩
    have hk : k' = k := ((key e k').1 (Finset.mem_filter.1 hj).2).1
    subst hk; rfl
  · intro e _
    rfl
  · intro j hj
    obtain ⟨e, k', rfl⟩ : ∃ (e : Fin E) (k' : Fin C), j = ix2 e k' := ⟨j 0, j 1, eq_ix2 j⟩
    have hk : k' = k := ((key e k').1 (Finset.mem_filter.1 hj).2).1
    subst hk; rfl

end Cert.Decode

end
-- ==== Proof.Arr.lean ====
/-
  The layer's three operations on ARRAYS at the ideal instance (functions from a literal shape's indices to the
  extended reals), each read at an index as the abstract operation of Proof/Agg.lean on the array's entries:
  the dense layer `A · W + b`, the rectifier `max · 0`, and the weighted aggregate over an edge list given by two
  [E, 1] columns of words (the scatter's targets, the gather's sources) and a weight per edge.
-/
import proofs.«402495_j66915590472502_4_alg».proof.Proof.Agg
import proofs.«402495_j66915590472502_4_alg».proof.Proof.Decode

noncomputable section

namespace Cert.Arr

open Idealize.ShloMosaic Idealize.ShloMosaic.ValueIdx Cert.Decode
open scoped BigOperators

/-- The entries of a rank-2 array as a function of row and column. -/
abbrev mat {N C : Nat} (A : (⟨2, ![N, C]⟩ : Shape).Idx → EReal) : Fin N → Fin C → EReal := fun i k => A (ix2 i k)

/-- The entries of a rank-1 array as a function of its position. -/
abbrev vec {C : Nat} (b : (⟨1, ![C]⟩ : Shape).Idx → EReal) : Fin C → EReal := fun j => b (ix1 j)

/-- The dense layer on arrays: `A · W + b`, the bias added to every row. -/
def denseArr {N K J : Nat} (A : (⟨2, ![N, K]⟩ : Shape).Idx → EReal) (W : (⟨2, ![K, J]⟩ : Shape).Idx → EReal)
    (b : (⟨1, ![J]⟩ : Shape).Idx → EReal) : (⟨2, ![N, J]⟩ : Shape).Idx → EReal :=
  fun y => Cert.Agg.dense (mat A) (mat W) (vec b) ⟨(y 0).val, idx2_lt0 y⟩ ⟨(y 1).val, idx2_lt1 y⟩

theorem denseArr_apply {N K J : Nat} (A : (⟨2, ![N, K]⟩ : Shape).Idx → EReal) (W : (⟨2, ![K, J]⟩ : Shape).Idx → EReal)
    (b : (⟨1, ![J]⟩ : Shape).Idx → EReal) (i : Fin N) (j : Fin J) :
    denseArr A W b (ix2 i j) = Cert.Agg.dense (mat A) (mat W) (vec b) i j := rfl

/-- The rectifier on arrays. -/
def reluArr {s : Shape} (x : s.Idx → EReal) : s.Idx → EReal := fun y => max (x y) 0

theorem reluArr_apply {s : Shape} (x : s.Idx → EReal) (y : s.Idx) : reluArr x y = max (x y) 0 := rfl

/-- The weighted aggregate on arrays: row `i` is the sum, over the edges the target column lands on `i`, of the
    source column's (clamped) row of `X` times the edge's weight. -/
def aggArr {N E C : Nat} (hN : 0 < N) (tgt src : Col E) (nrm : (⟨1, ![E]⟩ : Shape).Idx → EReal)
    (X : (⟨2, ![N, C]⟩ : Shape).Idx → EReal) : (⟨2, ![N, C]⟩ : Shape).Idx → EReal :=
  fun y => Cert.Agg.agg (tgtOf N tgt) (rowOf N hN src) (vec nrm) (mat X) ⟨(y 0).val, idx2_lt0 y⟩ ⟨(y 1).val, idx2_lt1 y⟩

theorem aggArr_apply {N E C : Nat} (hN : 0 < N) (tgt src : Col E) (nrm : (⟨1, ![E]⟩ : Shape).Idx → EReal)
    (X : (⟨2, ![N, C]⟩ : Shape).Idx → EReal) (i : Fin N) (k : Fin C) :
    aggArr hN tgt src nrm X (ix2 i k) = Cert.Agg.agg (tgtOf N tgt) (rowOf N hN src) (vec nrm) (mat X) i k := rfl

end Cert.Arr

end
-- ==== Proof.Layer.lean ====
/-
  The aggregate as the programs spell it, read as the weighted aggregate of Proof/Arr.lean.

  Both programs aggregate a node-feature matrix `X` over the edge list in the same four operations: gather the rows
  of `X` at the source column, multiply row `e` by the edge weight (the weight vector broadcast along the feature
  axis), and scatter-add the rows into a zero matrix at the target column. At the ideal instance this is, entry by
  entry, the sum over the edges landing on a node of the source row's entry times the weight: `Arr.aggArr`.
  Stated for the two feature widths the programs use, 128 and 64, over the reference's dimension-number records.
-/
import proofs.«402495_j66915590472502_4_alg».proof.Proof.RefRead
import proofs.«402495_j66915590472502_4_alg».proof.Proof.Arr
import Idealize.ShloMosaic.Lib.Pipeline.Value

noncomputable section

namespace Cert.ReferenceIdeal.Lay

open Cert.ReferenceIdeal Cert.ReferenceIdeal.Gen Idealize.ShloMosaic Idealize.ShloMosaic.ValueIdx
open Cert.Decode Cert.Arr
open scoped BigOperators

/-- The aggregate of a 128-wide matrix, as printed. -/
def agg128 (tgt src : IVec S1700000x1 32) (nrm : FVec Ideal S1700000 .f32) (X : FVec Ideal S100000x128 .f32) :
    FVec Ideal S100000x128 .f32 :=
  Host.scatterAdd scatter_S100000x128_S1700000x1_S1700000x128_1_0_0_1
    (broadcastInDim S100000x128 ![] bcast_S_S100000x128 (constant S_ .f32 0x00000000#32)) tgt
    (mulf (Host.gather gather_S100000x128_S1700000x1_S1700000x128_1_0_n_n_0_1_1128 X src)
      (broadcastInDim S1700000x128 ![0, 1] bcast_S1700000x1_S1700000x128_0_1
        (broadcastInDim S1700000x1 ![0] bcast_S1700000_S1700000x1_0 nrm)))

/-- The aggregate of a 64-wide matrix, as printed. -/
def agg64 (tgt src : IVec S1700000x1 32) (nrm : FVec Ideal S1700000 .f32) (X : FVec Ideal S100000x64 .f32) :
    FVec Ideal S100000x64 .f32 :=
  Host.scatterAdd scatter_S100000x64_S1700000x1_S1700000x64_1_0_0_1
    (broadcastInDim S100000x64 ![] bcast_S_S100000x64 (constant S_ .f32 0x00000000#32)) tgt
    (mulf (Host.gather gather_S100000x64_S1700000x1_S1700000x64_1_0_n_n_0_1_164 X src)
      (broadcastInDim S1700000x64 ![0, 1] bcast_S1700000x1_S1700000x64_0_1
        (broadcastInDim S1700000x1 ![0] bcast_S1700000_S1700000x1_0 nrm)))

theorem nodes_pos : 0 < 100000 := by decide

/-- The printed aggregate at the ideal instance is the ideal accumulating scatter of the weighted gathered rows. -/
theorem agg128_def (tgt src : IVec S1700000x1 32) (nrm : FVec Ideal S1700000 .f32) (X : FVec Ideal S100000x128 .f32) :
    agg128 tgt src nrm X = Ideal.hostScatterAdd scatter_S100000x128_S1700000x1_S1700000x128_1_0_0_1
      (broadcastInDim S100000x128 ![] bcast_S_S100000x128 (constant (F := Ideal) S_ .f32 0x00000000#32)) tgt
      (mulf (Host.gather gather_S100000x128_S1700000x1_S1700000x128_1_0_n_n_0_1_1128 X src)
        (broadcastInDim S1700000x128 ![0, 1] bcast_S1700000x1_S1700000x128_0_1
          (broadcastInDim S1700000x1 ![0] bcast_S1700000_S1700000x1_0 nrm))) := rfl

theorem agg64_def (tgt src : IVec S1700000x1 32) (nrm : FVec Ideal S1700000 .f32) (X : FVec Ideal S100000x64 .f32) :
    agg64 tgt src nrm X = Ideal.hostScatterAdd scatter_S100000x64_S1700000x1_S1700000x64_1_0_0_1
      (broadcastInDim S100000x64 ![] bcast_S_S100000x64 (constant (F := Ideal) S_ .f32 0x00000000#32)) tgt
      (mulf (Host.gather gather_S100000x64_S1700000x1_S1700000x64_1_0_n_n_0_1_164 X src)
        (broadcastInDim S1700000x64 ![0, 1] bcast_S1700000x1_S1700000x64_0_1
          (broadcastInDim S1700000x1 ![0] bcast_S1700000_S1700000x1_0 nrm))) := rfl

/-- The edge weight, broadcast to a column and then along the features, read at edge `e`, feature `k`. -/
theorem weight_apply {C : Nat} (h1 : S1700000.BroadcastsInDim S1700000x1 (![0] : Fin 1 → Fin S1700000x1.rank))
    (h2 : S1700000x1.BroadcastsInDim (⟨2, ![1700000, C]⟩ : Shape) (![0, 1] : Fin 2 → Fin 2))
    (nrm : FVec Ideal S1700000 .f32) (e : Fin 1700000) (k : Fin C) :
    broadcastInDim (⟨2, ![1700000, C]⟩ : Shape) ![0, 1] h2 (broadcastInDim S1700000x1 ![0] h1 nrm) (ix2 e k) = nrm (ix1 e) := by
  rw [broadcastInDim_apply _ h2 _ (ix2 e k) (ix2 e (0 : Fin 1)) (fun a => match a with
    | ⟨0, _⟩ => by show e.val = if (1700000 : Nat) = 1 then 0 else e.val; rw [if_neg (by decide)]
    | ⟨1, _⟩ => by show 0 = if (1 : Nat) = 1 then 0 else k.val; rw [if_pos rfl])]
  exact broadcastInDim_apply _ h1 nrm (ix2 e (0 : Fin 1)) (ix1 e) (fun a => match a with
    | ⟨0, _⟩ => by show e.val = if (1700000 : Nat) = 1 then 0 else e.val; rw [if_neg (by decide)])

/-- THE 128-WIDE AGGREGATE, READ: the weighted aggregate of `X` over the two columns and the weights. -/
theorem agg128_eq (tgt src : IVec S1700000x1 32) (nrm : FVec Ideal S1700000 .f32) (X : FVec Ideal S100000x128 .f32) :
    agg128 tgt src nrm X = aggArr nodes_pos tgt src nrm X := by
  funext y
  obtain ⟨i, k, rfl⟩ : ∃ (i : Fin 100000) (k : Fin 128), y = ix2 i k := ⟨y 0, y 1, eq_ix2 y⟩
  rw [aggArr_apply]
  rw [agg128_def, scatterAdd_rows scatter_S100000x128_S1700000x1_S1700000x128_1_0_0_1 rfl rfl rfl rfl]
  rw [broadcastInDim_apply _ bcast_S_S100000x128 _ (ix2 i k) ix0 (fun a => a.elim0)]
  show Ideal.ofBits .f32 0x00000000#32 + _ = _
  rw [Ideal.ofBits_zero_f32, zero_add]
  unfold Cert.Agg.agg
  refine Finset.sum_congr rfl fun e _ => ?_
  show FloatOps.mulf (Host.gather _ X src (ix2 e k)) (broadcastInDim _ _ _ _ (ix2 e k)) = _
  rw [gather_rows nodes_pos gather_S100000x128_S1700000x1_S1700000x128_1_0_n_n_0_1_1128 rfl rfl rfl rfl rfl, weight_apply, Ideal.mulf_def]

/-- THE 64-WIDE AGGREGATE, READ. -/
theorem agg64_eq (tgt src : IVec S1700000x1 32) (nrm : FVec Ideal S1700000 .f32) (X : FVec Ideal S100000x64 .f32) :
    agg64 tgt src nrm X = aggArr nodes_pos tgt src nrm X := by
  funext y
  obtain ⟨i, k, rfl⟩ : ∃ (i : Fin 100000) (k : Fin 64), y = ix2 i k := ⟨y 0, y 1, eq_ix2 y⟩
  rw [aggArr_apply]
  rw [agg64_def, scatterAdd_rows scatter_S100000x64_S1700000x1_S1700000x64_1_0_0_1 rfl rfl rfl rfl]
  rw [broadcastInDim_apply _ bcast_S_S100000x64 _ (ix2 i k) ix0 (fun a => a.elim0)]
  show Ideal.ofBits .f32 0x00000000#32 + _ = _
  rw [Ideal.ofBits_zero_f32, zero_add]
  unfold Cert.Agg.agg
  refine Finset.sum_congr rfl fun e _ => ?_
  show FloatOps.mulf (Host.gather _ X src (ix2 e k)) (broadcastInDim _ _ _ _ (ix2 e k)) = _
  rw [gather_rows nodes_pos gather_S100000x64_S1700000x1_S1700000x64_1_0_n_n_0_1_164 rfl rfl rfl rfl rfl, weight_apply, Ideal.mulf_def]

end Cert.ReferenceIdeal.Lay

end
-- ==== Proof.Deg.lean ====
/-
  Counting the updates that land on an element.

  A scatter of ones into zeros counts, at each element of the operand, the update indices that land on it. Done in
  32-bit integer arithmetic (a left fold of wrapping addition over the update indices in row-major order) and then
  converted to a float, or done as the ideal instance's accumulating float scatter of the float `1.0`, the value
  at the ideal instance is the same extended real: the number of hits, as long as there are fewer than `2^31`
  update indices in all (so that the 32-bit count neither wraps nor reads negative).
-/
import proofs.«402495_j66915590472502_4_alg».proof.Proof.LibReal
import Idealize.ShloMosaic.PureOps.Ideal
import Idealize.ShloMosaic.PureOps.ShapeOps

noncomputable section

namespace Cert.Deg

open Idealize.ShloMosaic Cert.LibReal
open scoped BigOperators

variable {s si u : Shape}

/-- The number of update indices that land on element `i`. -/
def hits (d : ScatterDims s si u) (idx : IVec si 32) (i : s.Idx) : Nat :=
  (Finset.univ.filter (fun j : u.Idx => d.resultIdx? j idx = some i)).card

/-- There are no more hits than update indices. -/
theorem hits_le (d : ScatterDims s si u) (idx : IVec si 32) (i : s.Idx) : hits d idx i ≤ u.numel := by
  unfold hits
  calc (Finset.univ.filter (fun j : u.Idx => d.resultIdx? j idx = some i)).card
      ≤ (Finset.univ : Finset u.Idx).card := Finset.card_filter_le _ _
    _ = u.numel := by rw [Finset.card_univ, Shape.card_idx]

/-- The fold of the scatter's step over any list of update positions: at element i the accumulator's word plus
    the number of positions of the list that land on i. -/
theorem foldl_step_addi_ones (d : ScatterDims s si u) (idx : IVec si 32) (i : s.Idx) :
    ∀ (l : List (Fin u.numel)) (acc : s.Idx → BitVec 32),
      (l.foldl (fun r n =>
          match d.resultIdx? (u.rowMajor.symm n) idx with
          | some i => fun i' => if i' = i then IntOp.addi (r i) ((fun _ : u.Idx => 1#32) (u.rowMajor.symm n)) else r i'
          | none => r) acc) i
        = acc i + BitVec.ofNat 32 (l.countP fun n => decide (d.resultIdx? (u.rowMajor.symm n) idx = some i)) := by
  intro l
  induction l with
  | nil => intro acc; simp
  | cons n l ih =>
    intro acc
    rw [List.foldl_cons, ih, List.countP_cons]
    cases h : d.resultIdx? (u.rowMajor.symm n) idx with
    | none => simp
    | some k =>
      by_cases hk : k = i
      · subst hk
        simp [IntOp.addi, BitVec.ofNat_add]
        ac_rfl
      · have hk' : ¬ i = k := fun e => hk e.symm
        simp [hk, hk']

/-- The integer scatter of ones into zeros holds the count, as a 32-bit word. -/
theorem scatter_addi_ones (d : ScatterDims s si u) (idx : IVec si 32) (i : s.Idx) :
    Host.scatter d IntOp.addi (fun _ => 0#32) idx (fun _ => 1#32) i = BitVec.ofNat 32 (hits d idx i) := by
  unfold Host.scatter
  refine (foldl_step_addi_ones d idx i _ _).trans ?_
  rw [BitVec.zero_add]
  congr 1
  rw [List.countP_eq_length_filter, ← List.toFinset_card_of_nodup ((List.nodup_finRange _).filter _)]
  unfold hits
  apply Finset.card_equiv u.rowMajor.symm
  intro n
  simp

/-- Converted to a float at the ideal instance, the integer count is the real number of hits. -/
theorem sitofp_scatter_addi_ones (d : ScatterDims s si u) (idx : IVec si 32) (hu : u.numel < 2 ^ 31) (i : s.Idx) :
    (FloatOps.sitofp (F := Ideal) .f32 (Host.scatter d IntOp.addi (fun _ => 0#32) idx (fun _ => 1#32) i) : EReal)
      = (((hits d idx i : Nat) : ℝ) : EReal) := by
  rw [scatter_addi_ones]
  have hn : hits d idx i < 2 ^ 31 := lt_of_le_of_lt (hits_le d idx i) hu
  have hnat : (BitVec.ofNat 32 (hits d idx i)).toNat = hits d idx i := by
    rw [BitVec.toNat_ofNat]; exact Nat.mod_eq_of_lt (by omega)
  have hint : (BitVec.ofNat 32 (hits d idx i)).toInt = ((hits d idx i : Nat) : Int) := by
    rw [BitVec.toInt_eq_toNat_of_lt (by rw [hnat]; omega), hnat]
  show (((BitVec.ofNat 32 (hits d idx i)).toInt : ℝ) : EReal) = _
  rw [hint, Int.cast_natCast]

/-- The ideal accumulating scatter of ones into zeros is the real number of hits. -/
theorem scatterAdd_ones (d : ScatterDims s si u) (idx : IVec si 32) (i : s.Idx) :
    Ideal.hostScatterAdd d (fun _ => (0 : EReal)) idx (fun _ => (1 : EReal)) i = (((hits d idx i : Nat) : ℝ) : EReal) := by
  unfold Ideal.hostScatterAdd hits
  rw [zero_add, Finset.sum_const, nsmul_one, EReal.coe_natCast]

/-- The f32 word `0x3F800000` denotes the real `1`. -/
theorem ofBits_one : Ideal.ofBits .f32 0x3F800000#32 = (1 : EReal) := by
  simp [Ideal.ofBits, Ideal.ieee, -EReal.coe_mul]; norm_num

/-- The inverse square root of a real that is at least one is a positive finite real. -/
theorem isPosReal_rsqrt {r : ℝ} (hr : 1 ≤ r) : IsPosReal (Ideal.rsqrt (r : EReal)) := by
  have h0 : 0 < r := lt_of_lt_of_le one_pos hr
  rw [Ideal.rsqrt_coe, if_neg (not_lt.mpr h0.le), if_neg h0.ne']
  exact isPosReal_coe (inv_pos.mpr (Real.sqrt_pos.mpr h0))

end Cert.Deg

end
-- ==== Proof.Norm.lean ====
/-
  The edge weights. Both programs weight edge `e` by `dinv[src e] · dinv[dst e]`, where `dinv` at a node is
  `1 / sqrt (max deg 1)` when the node's in-degree `deg` (self loop included) is positive and `0` otherwise. They
  differ in how the degree is counted: the reference scatter-adds the float `1.0`, the kernel scatter-adds the
  integer `1` in 32-bit arithmetic and converts the count to a float. With 1,700,000 edges the integer count
  neither wraps nor reads negative, so at the ideal instance both degrees are the same real number (Proof/Deg.lean),
  hence so are the weights; and every weight is a finite real, being a product of two values each `0` or the inverse
  square root of a real that is at least one.
-/
import proofs.«402495_j66915590472502_4_alg».proof.Proof.RefRead
import proofs.«402495_j66915590472502_4_alg».proof.Proof.Deg

noncomputable section

namespace Cert.ReferenceIdeal.Nrm

open Cert.ReferenceIdeal Cert.ReferenceIdeal.Gen Cert.ReferenceIdeal.ReadP Idealize.ShloMosaic Cert.LibReal

/-- `dinv` as a function of the degree array: the operations both programs apply to it. -/
def dinvOf (deg : FVec Ideal S100000 .f32) : FVec Ideal S100000 .f32 :=
  select (cmpf (F := Ideal) .ogt deg (val_main_v11 (F := Ideal)))
    (Host.rsqrt (maximumf deg (val_main_v13 (F := Ideal)))) (val_main_call0_v1 (F := Ideal))

/-- The edge weights as a function of the degree array and the edge list. -/
def normOf (deg : FVec Ideal S100000 .f32) (x1 : IVec S2x1600000 32) : FVec Ideal S1700000 .f32 :=
  mulf (Host.gather gather_S100000_S1700000x1_S1700000_n_0_n_n_0_1_1 (dinvOf deg) (val_main_v22 (F := Ideal) x1))
    (Host.gather gather_S100000_S1700000x1_S1700000_n_0_n_n_0_1_1 (dinvOf deg) (val_main_v29 (F := Ideal) x1))

/-- The reference's weights are `normOf` of its float-counted degree. -/
theorem v31_eq (x1 : IVec S2x1600000 32) :
    val_main_v31 (F := Ideal) x1 = normOf (val_main_v10 (F := Ideal) x1) x1 := rfl

/-- The kernel's degree: the 32-bit count of the edges landing on each node, converted to a float. -/
def kdeg (x1 : IVec S2x1600000 32) : FVec Ideal S100000 .f32 :=
  sitofp (F := Ideal) .f32 (Host.scatter scatter_S100000_S1700000x1_S1700000_n_0_0_1 IntOp.addi
    (broadcastInDim S100000 ![] bcast_S_S100000 (constantI S_ 32 0#32)) (val_main_v9 (F := Ideal) x1)
    (broadcastInDim S1700000 ![] bcast_S_S1700000 (constantI S_ 32 1#32)))

/-- There are fewer than 2^31 edges. -/
private theorem numel_lt : S1700000.numel < 2 ^ 31 := by
  rw [Shape.numel_rank1]
  norm_num

/-- The splat of the float word for one is the constant function one. -/
private theorem v7_eq : val_main_v7 (F := Ideal) = fun (_ : S1700000.Idx) => (1 : EReal) := by
  funext j; rw [val_main_v7_apply, val_main_cst_apply]; exact Deg.ofBits_one

/-- The splat of the float word for zero is the constant function zero. -/
private theorem v8_eq : val_main_v8 (F := Ideal) = fun (_ : S100000.Idx) => (0 : EReal) := by
  funext j; rw [val_main_v8_apply, val_main_cst_0_apply]; exact Ideal.ofBits_zero_f32

/-- The reference's degree is the ideal accumulating scatter of its three operands. -/
private theorem v10_eq (x1 : IVec S2x1600000 32) :
    val_main_v10 (F := Ideal) x1
      = Ideal.hostScatterAdd scatter_S100000_S1700000x1_S1700000_n_0_0_1 (val_main_v8 (F := Ideal))
          (val_main_v9 (F := Ideal) x1) (val_main_v7 (F := Ideal)) := rfl

/-- The reference's degree at a node is the number of edges landing on it. -/
private theorem v10_apply (x1 : IVec S2x1600000 32) (i : S100000.Idx) :
    val_main_v10 (F := Ideal) x1 i
      = (((Deg.hits scatter_S100000_S1700000x1_S1700000_n_0_0_1 (val_main_v9 (F := Ideal) x1) i : Nat) : ℝ) : EReal) := by
  rw [v10_eq, v7_eq, v8_eq]
  exact Deg.scatterAdd_ones _ _ i

/-- The splat of the integer zero is the constant function zero. -/
private theorem splat_zero :
    broadcastInDim S100000 ![] bcast_S_S100000 (constantI S_ 32 0#32) = fun (_ : S100000.Idx) => 0#32 := rfl

/-- The splat of the integer one is the constant function one. -/
private theorem splat_one :
    broadcastInDim S1700000 ![] bcast_S_S1700000 (constantI S_ 32 1#32) = fun (_ : S1700000.Idx) => 1#32 := rfl

/-- The two degrees agree at the ideal instance. -/
theorem kdeg_eq (x1 : IVec S2x1600000 32) : kdeg x1 = val_main_v10 (F := Ideal) x1 := by
  funext i
  rw [v10_apply, kdeg, splat_zero, splat_one, ValueIdx.sitofp_apply]
  exact Deg.sitofp_scatter_addi_ones scatter_S100000_S1700000x1_S1700000_n_0_0_1 (val_main_v9 (F := Ideal) x1) numel_lt i

/-- Hence the kernel's weights are the reference's. -/
theorem knorm_eq (x1 : IVec S2x1600000 32) : normOf (kdeg x1) x1 = val_main_v31 (F := Ideal) x1 := by
  rw [kdeg_eq, v31_eq]

/-- Every entry of `dinv` is a finite real: zero, or the inverse square root of a real that is at least one. -/
private theorem isReal_v16 (x1 : IVec S2x1600000 32) (i : S100000.Idx) : IsReal (val_main_v16 (F := Ideal) x1 i) := by
  rw [val_main_v16_apply, Scalar.select]
  by_cases h : val_main_v12 (F := Ideal) x1 i = 1
  · rw [if_pos h, val_main_v15_apply, val_main_v14_apply, Ideal.hostUnary_rsqrt_def, Ideal.maximumf_def, v10_apply,
      val_main_v13_apply, val_main_cst_2_apply]
    have h1 : FloatOps.ofBits (F := Ideal) .f32 0x3F800000#32 = ((1 : ℝ) : EReal) := by
      rw [EReal.coe_one]; exact Deg.ofBits_one
    rw [h1, ← EReal.coe_strictMono.monotone.map_max]
    exact (Deg.isPosReal_rsqrt (le_max_right _ _)).isReal
  · rw [if_neg h, val_main_call0_v1_apply, val_main_call0_v0_apply, val_main_cst_3_apply]
    exact isReal_ofBits_zero

/-- A gather reads its operand at the operand index of each result index. -/
private theorem gather_apply {α : Type} {s si t : Shape} {w : Nat} (d : GatherDims s si t) (x : s.Idx → α) (idx : IVec si w)
    (j : t.Idx) : Host.gather d x idx j = x (d.operandIdx j idx) := rfl

/-- The weight's first factor is a gather of `dinv`. -/
private theorem v23_eq (x1 : IVec S2x1600000 32) :
    val_main_v23 (F := Ideal) x1
      = Host.gather gather_S100000_S1700000x1_S1700000_n_0_n_n_0_1_1 (val_main_v16 (F := Ideal) x1) (val_main_v22 (F := Ideal) x1) := rfl

/-- The weight's second factor is a gather of `dinv`. -/
private theorem v30_eq (x1 : IVec S2x1600000 32) :
    val_main_v30 (F := Ideal) x1
      = Host.gather gather_S100000_S1700000x1_S1700000_n_0_n_n_0_1_1 (val_main_v16 (F := Ideal) x1) (val_main_v29 (F := Ideal) x1) := rfl

/-- Every edge weight is a finite real. -/
theorem isReal_norm (x1 : IVec S2x1600000 32) (e : S1700000.Idx) : IsReal (val_main_v31 (F := Ideal) x1 e) := by
  rw [val_main_v31_apply, Ideal.mulf_def, v23_eq, v30_eq, gather_apply, gather_apply]
  exact (isReal_v16 x1 _).mul (isReal_v16 x1 _)

end Cert.ReferenceIdeal.Nrm

end
-- ==== Proof.KHost.lean ====
/-
  The kernel program's host operations, read at the ideal instance.

  Between the launch and region 0 the program builds the edge list's two columns and the edge weights from the edge
  array and aggregates the node features `x`; between the two regions it aggregates region 0's output the same way.
  Read back through the segment boundaries' contents, region 0 is entered with its first operand at the aggregate
  of `x` and its weight and bias at the arguments as launched, and region 1 with its first operand at the aggregate
  of region 0's output array and its weight and bias at the arguments as launched. The aggregates are spelt over the
  reference's dimension-number records (Proof/Layer.lean): the two programs' records differ in their proof fields only.
-/
import proofs.«402495_j66915590472502_4_alg».proof.Proof.Gen.KernelIdeal.Frame
import proofs.«402495_j66915590472502_4_alg».proof.Proof.Layer
import proofs.«402495_j66915590472502_4_alg».proof.Proof.Norm
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo
open Cert.ReferenceIdeal.Lay Cert.ReferenceIdeal.Nrm

variable (m : (ℓ : Loc nD τ sig) → Buf (Elt Ideal) ℓ) (ρ : Dev nD → PrngReg)

/-- The edge array as launched. -/
abbrev ei (c : Dev nD) : IVec S2x1600000 32 := m ((c : Thread nD τ).loc main_arg1)

/-- The scatter's target column (the edges' destinations, self loops appended). -/
abbrev tgtC (c : Dev nD) : IVec S1700000x1 32 := Cert.ReferenceIdeal.ReadP.val_main_v44 (F := Ideal) (ei m c)
/-- The gather's source column (the edges' sources, self loops appended, a negative word wrapped once). -/
abbrev srcC (c : Dev nD) : IVec S1700000x1 32 := Cert.ReferenceIdeal.ReadP.val_main_v38 (F := Ideal) (ei m c)
/-- The kernel's edge weights. -/
abbrev nrmK (c : Dev nD) : FVec Ideal S1700000 .f32 := normOf (kdeg (ei m c)) (ei m c)

set_option maxHeartbeats 4000000 in
/-- Region 0 is entered with its first operand at the aggregate of `x`. -/
theorem V3_v45 (c : Dev nD) :
    (V3 m ρ c main_v45 : S100000x128.Idx → EReal)
      = agg128 (tgtC m c) (srcC m c) (nrmK m c) (m ((c : Thread nD τ).loc main_arg0)) := by
  dsimp only [V3, W3, W2, W1, hostOps0_2, hostOps0_1, hostOps0]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  simp only [TRef.ofBuf, TRef.toBuf, cast_eq]
  rfl

set_option maxHeartbeats 4000000 in
/-- … with its weight matrix at the argument as launched … -/
theorem V3_arg2 (c : Dev nD) :
    (V3 m ρ c main_arg2 : S128x128.Idx → EReal) = m ((c : Thread nD τ).loc main_arg2) := by
  dsimp only [V3, W3, W2, W1, hostOps0_2, hostOps0_1, hostOps0]
  after_results_simp

set_option maxHeartbeats 4000000 in
/-- … and its bias at the argument as launched. -/
theorem V3_arg3 (c : Dev nD) :
    (V3 m ρ c main_arg3 : S128.Idx → EReal) = m ((c : Thread nD τ).loc main_arg3) := by
  dsimp only [V3, W3, W2, W1, hostOps0_2, hostOps0_1, hostOps0]
  after_results_simp

set_option maxHeartbeats 4000000 in
/-- At region 0's entry the source words (self loops appended) are the reference's stage of the edge array. -/
theorem W3_v3 (c : Dev nD) :
    (W3 m ρ c (Proc.devRef .tc main_v3) : S1700000.Idx → BitVec 32)
      = Cert.ReferenceIdeal.ReadP.val_main_v3 (F := Ideal) (ei m c) := by
  dsimp only [W3, W2, W1, hostOps0_2, hostOps0_1, hostOps0]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxHeartbeats 4000000 in
/-- … the target words likewise … -/
theorem W3_v6 (c : Dev nD) :
    (W3 m ρ c (Proc.devRef .tc main_v6) : S1700000.Idx → BitVec 32)
      = Cert.ReferenceIdeal.ReadP.val_main_v6 (F := Ideal) (ei m c) := by
  dsimp only [W3, W2, W1, hostOps0_2, hostOps0_1, hostOps0]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxHeartbeats 4000000 in
/-- … and the edge weights are the kernel's. -/
theorem W3_v32 (c : Dev nD) :
    (W3 m ρ c (Proc.devRef .tc main_v32) : S1700000.Idx → EReal) = nrmK m c := by
  dsimp only [W3, W2, W1, hostOps0_2, hostOps0_1, hostOps0]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  simp only [TRef.ofBuf, TRef.toBuf, cast_eq]
  rfl

/-- Region 0's output array is the array the next stretch reads. -/
theorem W4_v46 (c : Dev nD) :
    (W4 m ρ c (Proc.devRef .tc main_v46) : S100000x128.Idx → EReal) = (dat0 (V3 m ρ) c).arrAt 3 cfg0.N :=
  W4_arr m ρ c 3

set_option maxHeartbeats 4000000 in
/-- Region 1 is entered with its first operand at the aggregate of region 0's output array. -/
theorem V5_v59 (c : Dev nD) :
    (V5 m ρ c main_v59 : S100000x128.Idx → EReal)
      = agg128 (tgtC m c) (srcC m c) (nrmK m c) (W4 m ρ c (Proc.devRef .tc main_v46)) := by
  dsimp only [V5, W5, hostOps1]
  after_results_simp
  rw [W4_of_ne m ρ c main_v3 (by decide), W4_of_ne m ρ c main_v6 (by decide), W4_of_ne m ρ c main_v32 (by decide),
    W3_v3, W3_v6, W3_v32]
  rfl

set_option maxHeartbeats 4000000 in
/-- … with its weight matrix at the argument as launched … -/
theorem V5_arg4 (c : Dev nD) :
    (V5 m ρ c main_arg4 : S128x64.Idx → EReal) = m ((c : Thread nD τ).loc main_arg4) := by
  dsimp only [V5, W5, hostOps1]
  after_results_simp
  rw [W4_of_ne m ρ c main_arg4 (by decide)]
  dsimp only [W3, W2, W1, hostOps0_2, hostOps0_1, hostOps0]
  after_results_simp

set_option maxHeartbeats 4000000 in
/-- … and its bias at the argument as launched. -/
theorem V5_arg5 (c : Dev nD) :
    (V5 m ρ c main_arg5 : S64.Idx → EReal) = m ((c : Thread nD τ).loc main_arg5) := by
  dsimp only [V5, W5, hostOps1]
  after_results_simp
  rw [W4_of_ne m ρ c main_arg5 (by decide)]
  dsimp only [W3, W2, W1, hostOps0_2, hostOps0_1, hostOps0]
  after_results_simp

/-- The program's result buffer is region 1's output array. -/
theorem W6_v60 (c : Dev nD) :
    (W6 m ρ c (Proc.devRef .tc main_v60) : S100000x64.Idx → EReal) = (dat1 (V5 m ρ) c).arrAt 3 cfg1.N :=
  W6_arr m ρ c 3

end Cert.KernelIdeal.KHost

end
-- ==== Proof.KRegion0.lean ====
/-
  Region 0 of the program: a dense layer over the node dimension, one block of 1000 rows per grid point.

  At grid point `t` the body loads rows `[1000 t, 1000 t + 1000)` of its first operand, the whole weight matrix and
  the whole bias, multiplies, adds the bias to every row, takes the maximum with zero and stores the block; the point's block is
  written back to the same rows of the output array, and the hundred blocks tile it. So after the region the
  output array is the dense layer under the rectifier of the operand arrays as the region found them, entry by entry.
-/
import proofs.«402495_j66915590472502_4_alg».proof.Proof.Gen.KernelIdeal.Frame
import proofs.«402495_j66915590472502_4_alg».proof.Proof.Arr
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KRegion0

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators

-- the TensorCore's buffer contents when the region is entered: any
variable (V : (c : Dev nD) → (b : Ref sig .tc) → Buf (Elt Ideal) ((c : Thread nD τ).loc b))

/-! ## The body's arithmetic at an entry

The product's two index maps, axis by axis: the left operand is read at the output's row and the contracted position, the
right one at the contracted position and the output's column. -/

theorem lhs_axis0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem lhs_axis1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
theorem rhs_axis0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem rhs_axis1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- The block product at an entry: row `p` of the left block against column `q` of the weights. -/
theorem matmul_at (x : FVec Ideal S1000x128 .f32) (w : FVec Ideal S128x128 .f32) (p : Fin 1000) (q : Fin 128) :
    matmul dot_S1000x128_S128x128_S1000x128_1_0_0_1_n_n (some .fp32) x w (constant (F := Ideal) S1000x128 .f32 0x00000000#32) (ix2 p q)
      = ∑ k : Fin 128, x (ix2 p k) * w (ix2 k q) := by
  refine (Ideal.matmul_constant_zero_apply dot_S1000x128_S128x128_S1000x128_1_0_0_1_n_n (some .fp32) x w (ix2 p q)).trans ?_
  rw [← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p q) ((ValueIdx.contrEquiv1 dot_S1000x128_S128x128_S1000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S1000x128_S128x128_S1000x128_1_0_0_1_n_n.rhsIdx (ix2 p q) ((ValueIdx.contrEquiv1 dot_S1000x128_S128x128_S1000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The bias as a row, repeated down the block: every row reads the bias at its column. -/
theorem bias_at (b : FVec Ideal S128 .f32) (p : Fin 1000) (q : Fin 128) :
    broadcastTo S1000x128 (shapeCast S1x128 b shapeCasts_S128_S1x128) broadcasts_S1x128_S1000x128 (ix2 p q) = b (ix1 q) :=
  (broadcastTo_1b_ab_apply _ broadcasts_S1x128_S1000x128 p q).trans (shapeCast_a_1a_apply b shapeCasts_S128_S1x128 0 q)

/-- WHAT THE BODY STORES, at row `p` and column `q` of its block: the row of the left block against the column of
    the weights, plus the bias at the column, and the larger of that and zero. -/
theorem pay_at (x0 : FVec Ideal S1000x128 .f32) (x1 : FVec Ideal S128x128 .f32) (x2 : FVec Ideal S128 .f32) (p : Fin 1000) (q : Fin 128) :
    k0_pay1 (F := Ideal) x0 x1 x2 (ix2 p q) = max ((∑ k : Fin 128, x0 (ix2 p k) * x1 (ix2 k q)) + x2 (ix1 q)) 0 := by
  unfold k0_pay1
  rw [shapeCast_self]
  refine (maximumf_apply _ _ (ix2 p q)).trans ?_
  rw [addf_apply, matmul_at, bias_at, broadcast_apply]
  show max _ (Ideal.ofBits .f32 0x00000000#32) = _
  rw [Ideal.ofBits_zero_f32]

/-- The same entry as the layer's entry of three ARRAYS, when the blocks read those arrays: the left block rows
    `1000 r …` of `A`, the other two all of `W` and of `b`. -/
theorem block_entry (A : S100000x128.Idx → EReal) (W : S128x128.Idx → EReal) (b : S128.Idx → EReal)
    (x0 : FVec Ideal S1000x128 .f32) (x1 : FVec Ideal S128x128 .f32) (x2 : FVec Ideal S128 .f32)
    (r : Nat) (p : Fin 1000) (q : Fin 128) (h : r * 1000 + p.val < 100000)
    (h0 : ∀ k : Fin 128, x0 (ix2 p k) = A (ix2 ⟨r * 1000 + p.val, h⟩ k))
    (h1 : ∀ k : Fin 128, x1 (ix2 k q) = W (ix2 k q)) (h2 : x2 (ix1 q) = b (ix1 q)) :
    k0_pay1 (F := Ideal) x0 x1 x2 (ix2 p q) = Cert.Arr.reluArr (Cert.Arr.denseArr A W b) (ix2 ⟨r * 1000 + p.val, h⟩ q) := by
  rw [pay_at, Cert.Arr.reluArr_apply, Cert.Arr.denseArr_apply, h2]
  unfold Cert.Agg.dense
  simp only [h0, h1]

/-! ## From the blocks to the array -/

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the first operand's block and the output's are row block `t`;
    the weights' and the bias's are block 0 at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The first operand's block at point `t` is rows `1000 t … 1000 t + 999` of its array. -/
theorem rows_at (c : Dev nD) (t : Fin cfg0.N) (p : Fin 1000) (k : Fin 128) (h : t.val * 1000 + p.val < 100000) :
    (iblk0 V c 0 t : Vec Ideal S1000x128 .f32) (ix2 p k) = (V c main_v45 : S100000x128.Idx → EReal) (ix2 ⟨t.val * 1000 + p.val, h⟩ k) := by
  obtain ⟨e0, e1, -⟩ := idx_facts t
  unfold iblk0
  rw [View.read_apply]
  show V c main_v45 _ = V c main_v45 _
  congr 1
  funext a
  apply Fin.ext
  match a with
  | ⟨0, _⟩ => show win0_0.index t (0 : Fin 2) * 1000 + 1 * p.val = t.val * 1000 + p.val; rw [e0]; omega
  | ⟨1, _⟩ => show win0_0.index t (1 : Fin 2) * 128 + 1 * k.val = k.val; rw [e1]; omega

/-- The weights' block at every point is the whole weight matrix. -/
theorem weights_at (c : Dev nD) (t : Fin cfg0.N) (k : Fin 128) (q : Fin 128) :
    (iblk0 V c 1 t : Vec Ideal S128x128 .f32) (ix2 k q) = (V c main_arg2 : S128x128.Idx → EReal) (ix2 k q) := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- The bias's block at every point is the whole bias. -/
theorem biasblk_at (c : Dev nD) (t : Fin cfg0.N) (q : Fin 128) :
    (iblk0 V c 2 t : Vec Ideal S128 .f32) (ix1 q) = (V c main_arg3 : S128.Idx → EReal) (ix1 q) := by
  obtain ⟨-, -, -, -, e4, -⟩ := idx_facts t
  unfold iblk0
  rw [View.read_apply]
  show V c main_arg3 _ = V c main_arg3 _
  congr 1
  funext a
  apply Fin.ext
  match a with
  | ⟨0, _⟩ => show win0_2.index t (0 : Fin 1) * 128 + 1 * q.val = q.val; rw [e4]; omega

/-- The layer of the three operand arrays as the region finds them. -/
abbrev layer (c : Dev nD) : S100000x128.Idx → EReal :=
  Cert.Arr.reluArr (Cert.Arr.denseArr (V c main_v45 : S100000x128.Idx → EReal) (V c main_arg2 : S128x128.Idx → EReal) (V c main_arg3 : S128.Idx → EReal))

/-- WHAT POINT `t` WRITES BACK is block `t` of the layer. -/
theorem flushed_eq (c : Dev nD) (t : Fin cfg0.N) :
    (dat0 (F := Ideal) V c).flushed 3 t = ((cfg0.win 3).blk t).view.read (Elt Ideal) (layer V c) := by
  show (cfg0.win 3).cut (grid0.coords t) ((dat0 V c).after 3 t) = _
  rw [after0_3]
  unfold out0_3
  rw [View.canon_unit_zero hz2]
  simp only [View.ld_unit_zero (S := S1000x128) hz2, View.ld_unit_zero (S := S128x128) hz2, View.ld_unit_zero (S := S128) hz1]
  funext j
  obtain ⟨p, q, rfl⟩ : ∃ (p : Fin 1000) (q : Fin 128), j = ix2 p q := ⟨j 0, j 1, eq_ix2 j⟩
  obtain ⟨-, -, -, -, -, e5, e6⟩ := idx_facts t
  have hN : cfg0.N = 100 := N_0
  have hp : t.val * 1000 + p.val < 100000 := by have := t.isLt; omega
  show k0_pay1 (F := Ideal) (iblk0 V c 0 t) (iblk0 V c 1 t) (iblk0 V c 2 t) (ix2 p q) = layer V c (((cfg0.win 3).blk t).view.emb (ix2 p q))
  have he : ((cfg0.win 3).blk t).view.emb (ix2 p q) = ix2 ⟨t.val * 1000 + p.val, hp⟩ q := by
    funext a; apply Fin.ext
    match a with
    | ⟨0, _⟩ => show win0_3.index t (0 : Fin 2) * 1000 + 1 * p.val = t.val * 1000 + p.val; rw [e5]; omega
    | ⟨1, _⟩ => show win0_3.index t (1 : Fin 2) * 128 + 1 * q.val = q.val; rw [e6]; omega
  rw [he]
  exact block_entry _ _ _ (iblk0 V c 0 t) (iblk0 V c 1 t) (iblk0 V c 2 t) t.val p q hp (fun k => rows_at V c t p k hp) (fun k => weights_at V c t k q) (biasblk_at V c t q)

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S1000x128.size a ≤ (i a).val ∧ (i a).val < win0_3.index t a * S1000x128.size a + S1000x128.size a := by
  show i ∈ ((View.whole main_v46).slice (win0_3.rect t)).set ↔ _
  rw [View.set_slice_whole, Rect.mem_set_unit]
  exact Iff.rfl

/-- THE HUNDRED BLOCKS TILE THE ARRAY: row `r` is in the block of point `r / 1000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 100 := N_0
  have ht : (i 0).val / 1000 < cfg0.N := by rw [hN]; omega
  obtain ⟨-, -, -, -, -, e5, e6⟩ := idx_facts ⟨(i 0).val / 1000, ht⟩
  refine ⟨⟨(i 0).val / 1000, ht⟩, flush0_3 _, ?_⟩
  rw [mem_blk]
  intro a
  match a with
  | ⟨0, _⟩ =>
    show win0_3.index ⟨(i 0).val / 1000, ht⟩ (0 : Fin 2) * 1000 ≤ (i 0).val ∧ (i 0).val < win0_3.index ⟨(i 0).val / 1000, ht⟩ (0 : Fin 2) * 1000 + 1000
    rw [e5]; show (i 0).val / 1000 * 1000 ≤ (i 0).val ∧ (i 0).val < (i 0).val / 1000 * 1000 + 1000; omega
  | ⟨1, _⟩ =>
    show win0_3.index ⟨(i 0).val / 1000, ht⟩ (1 : Fin 2) * 128 ≤ (i 1).val ∧ (i 1).val < win0_3.index ⟨(i 0).val / 1000, ht⟩ (1 : Fin 2) * 128 + 128
    rw [e6]; omega

/-- THE REGION'S VALUE: after its hundred grid points the output array holds the dense layer, rectified, of the three
    operand arrays as the region found them. -/
theorem value (c : Dev nD) :
    ((dat0 (F := Ideal) V c).arrAt 3 cfg0.N : S100000x128.Idx → EReal)
      = Cert.Arr.reluArr (Cert.Arr.denseArr (V c main_v45 : S100000x128.Idx → EReal) (V c main_arg2 : S128x128.Idx → EReal) (V c main_arg3 : S128.Idx → EReal)) :=
  (dat0 (F := Ideal) V c).arrAt_eq_of_cover 3 (layer V c) (fun t _ => flushed_eq V c t) cover

end Cert.KernelIdeal.KRegion0

end
-- ==== Proof.KRegion1.lean ====
/-
  Region 1 of the program: a dense layer over the node dimension, one block of 1000 rows per grid point.

  At grid point `t` the body loads rows `[1000 t, 1000 t + 1000)` of its first operand, the whole weight matrix and
  the whole bias, multiplies, adds the bias to every row and stores the block; the point's block is
  written back to the same rows of the output array, and the hundred blocks tile it. So after the region the
  output array is the dense layer of the operand arrays as the region found them, entry by entry.
-/
import proofs.«402495_j66915590472502_4_alg».proof.Proof.Gen.KernelIdeal.Frame
import proofs.«402495_j66915590472502_4_alg».proof.Proof.Arr
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KRegion1

open Cert.KernelIdeal Cert.KernelIdeal.Gen
open Idealize.ShloMosaic Idealize.ShloMosaic.TcCoe Idealize.SL.Sem Idealize.ShloMosaic.ValueIdx
open Idealize.ShloMosaic.Pipeline (Dat Cfg Window)

-- the TensorCore's buffer contents when the region is entered: any
variable (V : (c : Dev nD) → (b : Ref sig .tc) → Buf (Elt Ideal) ((c : Thread nD τ).loc b))

/-! ## The block product at an index -/

theorem lhs_axis0 (i : S1000x64.Idx) (q : dot_S1000x128_S128x64_S1000x64_1_0_0_1_n_n.contr.Idx) :
    (dot_S1000x128_S128x64_S1000x64_1_0_0_1_n_n.lhsIdx i q 0).val = (i 0).val := by
  unfold DotDims.lhsIdx
  rw [dif_neg (show ¬(0 : Fin S1000x128.rank) ∈ dot_S1000x128_S128x64_S1000x64_1_0_0_1_n_n.lhsBatch by decide), dif_pos (show (0 : Fin S1000x128.rank) ∈ dot_S1000x128_S128x64_S1000x64_1_0_0_1_n_n.lhsNonContracting by decide)]
  rfl
theorem lhs_axis1 (i : S1000x64.Idx) (q : dot_S1000x128_S128x64_S1000x64_1_0_0_1_n_n.contr.Idx) :
    (dot_S1000x128_S128x64_S1000x64_1_0_0_1_n_n.lhsIdx i q 1).val = (q ⟨0, by decide⟩).val :=
  dot_S1000x128_S128x64_S1000x64_1_0_0_1_n_n.lhsIdx_val_of_single rfl i q
theorem rhs_axis0 (i : S1000x64.Idx) (q : dot_S1000x128_S128x64_S1000x64_1_0_0_1_n_n.contr.Idx) :
    (dot_S1000x128_S128x64_S1000x64_1_0_0_1_n_n.rhsIdx i q 0).val = (q ⟨0, by decide⟩).val :=
  dot_S1000x128_S128x64_S1000x64_1_0_0_1_n_n.rhsIdx_val_of_single rfl i q
theorem rhs_axis1 (i : S1000x64.Idx) (q : dot_S1000x128_S128x64_S1000x64_1_0_0_1_n_n.contr.Idx) :
    (dot_S1000x128_S128x64_S1000x64_1_0_0_1_n_n.rhsIdx i q 1).val = (i 1).val := by
  unfold DotDims.rhsIdx
  rw [dif_neg (show ¬(1 : Fin S128x64.rank) ∈ dot_S1000x128_S128x64_S1000x64_1_0_0_1_n_n.rhsBatch by decide), dif_pos (show (1 : Fin S128x64.rank) ∈ dot_S1000x128_S128x64_S1000x64_1_0_0_1_n_n.rhsNonContracting by decide)]
  rfl

/-- The block product into a zero accumulator, at row `p` and column `q` of the block: the sum over the 128 shared
    coordinates of the left block's row times the right block's column. -/
theorem matmul_block_apply (x0 : FVec Ideal S1000x128 .f32) (x1 : FVec Ideal S128x64 .f32) (p : Fin 1000) (q : Fin 64) :
    FloatOps.matmul dot_S1000x128_S128x64_S1000x64_1_0_0_1_n_n (some .fp32) x0 x1 (constant S1000x64 .f32 0x00000000#32) (ix2 p q)
      = ∑ k : Fin 128, x0 (ix2 p k) * x1 (ix2 k q) := by
  rw [Ideal.matmul_constant_zero_apply, ← Equiv.sum_comp (ValueIdx.contrEquiv1 dot_S1000x128_S128x64_S1000x64_1_0_0_1_n_n 128 rfl rfl).symm]
  refine Finset.sum_congr rfl fun k _ => ?_
  have hk := ValueIdx.contrEquiv1_symm_val dot_S1000x128_S128x64_S1000x64_1_0_0_1_n_n 128 rfl rfl k
  have el : dot_S1000x128_S128x64_S1000x64_1_0_0_1_n_n.lhsIdx (ix2 p q) ((ValueIdx.contrEquiv1 dot_S1000x128_S128x64_S1000x64_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S1000x128_S128x64_S1000x64_1_0_0_1_n_n.rhsIdx (ix2 p q) ((ValueIdx.contrEquiv1 dot_S1000x128_S128x64_S1000x64_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- THE BODY'S ARITHMETIC AT AN INDEX: entry `(p, q)` of what the body stores is row `p` of the row block times
    column `q` of the weights, plus the bias at `q`. -/
theorem pay_apply (x0 : Vec Ideal S1000x128 .f32) (x1 : Vec Ideal S128x64 .f32) (x2 : Vec Ideal S64 .f32) (p : Fin 1000) (q : Fin 64) :
    k1_pay1 (F := Ideal) x0 x1 x2 (ix2 p q) = (∑ k : Fin 128, x0 (ix2 p k) * x1 (ix2 k q)) + x2 (ix1 q) := by
  unfold k1_pay1
  rw [addf_apply, shapeCast_self, broadcastTo_1b_ab_apply, shapeCast_a_1a_apply]
  exact congrArg (· + x2 (ix1 q)) (matmul_block_apply x0 x1 p q)

/-! ## The blocks the windows stage -/

theorem hz2 : (![0, 0] : Fin 2 → Nat) = fun _ => 0 := funext fun a => by fin_cases a <;> rfl
theorem hz1 : (![0] : Fin 1 → Nat) = fun _ => 0 := funext fun a => by fin_cases a; rfl

/-- The windows' block indices, decided over the hundred points: the operand's and the output's row block is the
    point's number, their column block `0`; the weights' and the bias's block is always block `0`. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- One block of the dense layer: if `x0` is rows `[1000 t, 1000 t + 1000)` of `A`, `x1` is `W` and `x2` is `b`, then what
    the body stores at `j` is the dense layer of `A`, `W`, `b` at row `1000 t + j 0`, column `j 1`. -/
theorem block_eq (A : S100000x128.Idx → EReal) (W : S128x64.Idx → EReal) (b : S64.Idx → EReal)
    (x0 : Vec Ideal S1000x128 .f32) (x1 : Vec Ideal S128x64 .f32) (x2 : Vec Ideal S64 .f32) (t : Nat)
    (h0 : ∀ (x : S1000x128.Idx) (k : S100000x128.Idx), (k 0).val = 1000 * t + (x 0).val → (k 1).val = (x 1).val → x0 x = A k)
    (h1 : x1 = W) (h2 : x2 = b)
    (j : S1000x64.Idx) (i : S100000x64.Idx) (hi0 : (i 0).val = 1000 * t + (j 0).val) (hi1 : (i 1).val = (j 1).val) :
    k1_pay1 (F := Ideal) x0 x1 x2 j = Cert.Arr.denseArr A W b i := by
  obtain ⟨p, q, rfl⟩ : ∃ (p : Fin 1000) (q : Fin 64), j = ix2 p q := ⟨j 0, j 1, eq_ix2 j⟩
  obtain ⟨r, s, rfl⟩ : ∃ (r : Fin 100000) (s : Fin 64), i = ix2 r s := ⟨i 0, i 1, eq_ix2 i⟩
  have hs : s = q := Fin.ext hi1
  subst hs
  rw [pay_apply, Cert.Arr.denseArr_apply, h1, h2]
  unfold Cert.Agg.dense
  refine congrArg (· + b (ix1 s)) (Finset.sum_congr rfl fun k _ => ?_)
  rw [h0 (ix2 p k) (ix2 r k) hi0 rfl]

/-- The first window's block at point `t` is rows `[1000 t, 1000 t + 1000)` of the operand. -/
theorem rows_apply (c : Dev nD) (t : Fin cfg1.N) (x : S1000x128.Idx) (k : S100000x128.Idx)
    (hk0 : (k 0).val = 1000 * t.val + (x 0).val) (hk1 : (k 1).val = (x 1).val) :
    (iblk1 V c 0 t : Vec Ideal S1000x128 .f32) x = (V c main_v59 : S100000x128.Idx → EReal) k := by
  obtain ⟨e0, e1, -⟩ := index_facts t
  unfold iblk1
  rw [View.read_apply]
  show V c main_v59 _ = V c main_v59 _
  congr 1
  funext a
  apply Fin.ext
  match a with
  | ⟨0, _⟩ => show win1_0.index t (0 : Fin 2) * 1000 + 1 * (x 0).val = (k 0).val; rw [e0, hk0]; omega
  | ⟨1, _⟩ => show win1_0.index t (1 : Fin 2) * 128 + 1 * (x 1).val = (k 1).val; rw [e1, hk1]; omega

/-- The second window's block is the whole weight matrix at every point. -/
theorem weights_eq (c : Dev nD) (t : Fin cfg1.N) :
    (iblk1 V c 1 t : Vec Ideal S128x64 .f32) = (V c main_arg4 : S128x64.Idx → EReal) := by
  obtain ⟨-, -, e0, e1, -⟩ := index_facts t
  funext x
  unfold iblk1
  rw [View.read_apply]
  show V c main_arg4 _ = V c main_arg4 x
  congr 1
  funext a
  apply Fin.ext
  match a with
  | ⟨0, _⟩ => show win1_1.index t (0 : Fin 2) * 128 + 1 * (x 0).val = (x 0).val; rw [e0]; omega
  | ⟨1, _⟩ => show win1_1.index t (1 : Fin 2) * 64 + 1 * (x 1).val = (x 1).val; rw [e1]; omega

/-- The third window's block is the whole bias at every point. -/
theorem bias_eq (c : Dev nD) (t : Fin cfg1.N) :
    (iblk1 V c 2 t : Vec Ideal S64 .f32) = (V c main_arg5 : S64.Idx → EReal) := by
  obtain ⟨-, -, -, -, e0, -⟩ := index_facts t
  funext x
  unfold iblk1
  rw [View.read_apply]
  show V c main_arg5 _ = V c main_arg5 x
  congr 1
  funext a
  apply Fin.ext
  match a with
  | ⟨0, _⟩ => show win1_2.index t (0 : Fin 1) * 64 + 1 * (x 0).val = (x 0).val; rw [e0]; omega

/-! ## From the blocks to the array -/

/-- WHAT POINT `t` WRITES BACK is block `t` of the dense layer of the operand arrays as the region found them. -/
theorem flushed_eq (c : Dev nD) (t : Fin cfg1.N) :
    (dat1 (F := Ideal) V c).flushed 3 t = ((cfg1.win 3).blk t).view.read (Elt Ideal)
      (Cert.Arr.denseArr (V c main_v59 : S100000x128.Idx → EReal) (V c main_arg4 : S128x64.Idx → EReal) (V c main_arg5 : S64.Idx → EReal)) := by
  show (cfg1.win 3).cut (grid1.coords t) ((dat1 V c).after 3 t) = _
  rw [after1_3]
  unfold out1_3
  rw [View.canon_unit_zero hz2]
  simp only [View.ld_unit_zero (S := S1000x128) hz2, View.ld_unit_zero (S := S128x64) hz2, View.ld_unit_zero (S := S64) hz1]
  obtain ⟨-, -, -, -, -, e0, e1⟩ := index_facts t
  funext j
  rw [View.read_apply]
  refine block_eq (V c main_v59) (V c main_arg4) (V c main_arg5) (iblk1 V c 0 t) (iblk1 V c 1 t) (iblk1 V c 2 t) t.val
    (rows_apply V c t) (weights_eq V c t) (bias_eq V c t) j (((cfg1.win 3).blk t).view.emb j) ?_ ?_
  · show win1_3.index t (0 : Fin 2) * 1000 + 1 * (j 0).val = 1000 * t.val + (j 0).val; rw [e0]; omega
  · show win1_3.index t (1 : Fin 2) * 64 + 1 * (j 1).val = (j 1).val; rw [e1]; omega

/-- An index of the output array is in point `t`'s block iff each coordinate is in the block's range on its axis. -/
theorem mem_blk (t : Fin cfg1.N) (i : S100000x64.Idx) :
    i ∈ ((cfg1.win 3).blk t).view.set ↔ ∀ a : Fin 2, win1_3.index t a * S1000x64.size a ≤ (i a).val ∧ (i a).val < win1_3.index t a * S1000x64.size a + S1000x64.size a := by
  show i ∈ ((View.whole main_v60).slice (win1_3.rect t)).set ↔ _
  rw [View.set_slice_whole, Rect.mem_set_unit]
  exact Iff.rfl

/-- The hundred row blocks cover the output array: row `r` is in the block of point `r / 1000`. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 100 := N_1
  have ht : (i 0).val / 1000 < cfg1.N := by show (i 0).val / 1000 < grid1.N; rw [hN]; omega
  obtain ⟨-, -, -, -, -, e0, e1⟩ := index_facts ⟨(i 0).val / 1000, ht⟩
  refine ⟨⟨(i 0).val / 1000, ht⟩, flush1_3 _, ?_⟩
  rw [mem_blk]
  intro a
  match a with
  | ⟨0, _⟩ =>
    show win1_3.index ⟨(i 0).val / 1000, ht⟩ (0 : Fin 2) * 1000 ≤ (i 0).val ∧ (i 0).val < win1_3.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win1_3.index ⟨(i 0).val / 1000, ht⟩ (1 : Fin 2) * 64 ≤ (i 1).val ∧ (i 1).val < win1_3.index ⟨(i 0).val / 1000, ht⟩ (1 : Fin 2) * 64 + 64
    rw [e1]; omega

/-- THE REGION'S VALUE: after its hundred grid points the output array holds the dense layer of the three
    operand arrays as the region found them. -/
theorem value (c : Dev nD) :
    ((dat1 (F := Ideal) V c).arrAt 3 cfg1.N : S100000x64.Idx → EReal)
      = Cert.Arr.denseArr (V c main_v59 : S100000x128.Idx → EReal) (V c main_arg4 : S128x64.Idx → EReal) (V c main_arg5 : S64.Idx → EReal) := by
  exact (dat1 (F := Ideal) V c).arrAt_eq_of_cover 3 _ (fun t _ => flushed_eq V c t) covered

end Cert.KernelIdeal.KRegion1

end
-- ==== Proof.Gcn.lean ====
/-
  Two graph-convolution layers, in the two orders.

  The reference transforms first and aggregates second in each layer: `agg (X · W) + b`. The kernel aggregates first and
  applies the dense layer second: `agg X · W + b`. With a rectifier between the layers the two compositions are the
  same function of finite inputs: the first layers agree entry by entry (aggregating commutes with the product), so
  their rectified outputs are one finite matrix `H`, and the second layers agree on `H` by the same law.
-/
import proofs.«402495_j66915590472502_4_alg».proof.Proof.Agg

noncomputable section

namespace Cert.Gcn

open Cert.LibReal Cert.Agg
open scoped BigOperators

variable {E N K H J : Type} [Fintype E] [Fintype K] [Fintype H] [DecidableEq N]

/-- The hidden layer as the kernel computes it: aggregate, dense layer, rectifier. -/
def hiddenK (tgt : E → Option N) (row : E → N) (nrm : E → EReal) (X : N → K → EReal) (W1 : K → H → EReal) (b1 : H → EReal)
    (i : N) (h : H) : EReal :=
  max (dense (agg tgt row nrm X) W1 b1 i h) 0

/-- The hidden layer as the reference computes it: product, aggregate, bias, rectifier. -/
def hiddenR (tgt : E → Option N) (row : E → N) (nrm : E → EReal) (X : N → K → EReal) (W1 : K → H → EReal) (b1 : H → EReal)
    (i : N) (h : H) : EReal :=
  max (agg tgt row nrm (fun i h => ∑ k, X i k * W1 k h) i h + b1 h) 0

/-- The hidden layers agree, on finite inputs. -/
theorem hiddenR_eq (tgt : E → Option N) (row : E → N) {nrm : E → EReal} {X : N → K → EReal} {W1 : K → H → EReal} (b1 : H → EReal)
    (hX : ∀ i k, IsReal (X i k)) (hW1 : ∀ k h, IsReal (W1 k h)) (hn : ∀ e, IsReal (nrm e)) :
    hiddenR tgt row nrm X W1 b1 = hiddenK tgt row nrm X W1 b1 := by
  funext i h
  unfold hiddenR hiddenK
  rw [agg_matmul_add_bias tgt row b1 hX hW1 hn]

/-- The kernel's hidden layer is a finite matrix. -/
theorem isReal_hiddenK (tgt : E → Option N) (row : E → N) {nrm : E → EReal} {X : N → K → EReal} {W1 : K → H → EReal} {b1 : H → EReal}
    (hX : ∀ i k, IsReal (X i k)) (hW1 : ∀ k h, IsReal (W1 k h)) (hb1 : ∀ h, IsReal (b1 h)) (hn : ∀ e, IsReal (nrm e))
    (i : N) (h : H) : IsReal (hiddenK tgt row nrm X W1 b1 i h) :=
  (isReal_dense (fun i k => isReal_agg tgt row hX hn i k) hW1 hb1 i h).max isReal_zero

/-- THE TWO LAYERS AGREE, on finite inputs: the reference's output (product, aggregate, bias over its hidden layer) is
    the kernel's (aggregate, dense layer over its hidden layer). -/
theorem two_layers (tgt : E → Option N) (row : E → N) {nrm : E → EReal} {X : N → K → EReal} {W1 : K → H → EReal} {b1 : H → EReal}
    {W2 : H → J → EReal} (b2 : J → EReal)
    (hX : ∀ i k, IsReal (X i k)) (hW1 : ∀ k h, IsReal (W1 k h)) (hb1 : ∀ h, IsReal (b1 h)) (hW2 : ∀ h j, IsReal (W2 h j))
    (hn : ∀ e, IsReal (nrm e)) (i : N) (j : J) :
    agg tgt row nrm (fun i j => ∑ h, hiddenR tgt row nrm X W1 b1 i h * W2 h j) i j + b2 j
      = dense (agg tgt row nrm (hiddenK tgt row nrm X W1 b1)) W2 b2 i j := by
  rw [hiddenR_eq tgt row b1 hX hW1 hn]
  exact agg_matmul_add_bias tgt row b2 (isReal_hiddenK tgt row hX hW1 hb1 hn) hW2 hn i j

end Cert.Gcn

end
-- ==== Proof.KValue.lean ====
/-
  The kernel program's result, entry by entry, in the abstract form of Proof/Gcn.lean.

  The result buffer is region 1's output array: the dense layer (second weight matrix and bias) of the aggregate of
  region 0's output array, which is the rectified dense layer (first weight matrix and bias) of the aggregate of the
  node features `x`. Read at node `i`, output feature `j`, that is the dense layer of the aggregate of the kernel's
  hidden layer.
-/
import proofs.«402495_j66915590472502_4_alg».proof.Proof.KHost
import proofs.«402495_j66915590472502_4_alg».proof.Proof.KRegion0
import proofs.«402495_j66915590472502_4_alg».proof.Proof.KRegion1
import proofs.«402495_j66915590472502_4_alg».proof.Proof.Gcn

set_option maxRecDepth 16384

noncomputable section

namespace Cert.KernelIdeal.KValue

open Cert.KernelIdeal Cert.KernelIdeal.Gen Cert.KernelIdeal.KHost
open Idealize.ShloMosaic Idealize.ShloMosaic.TcCoe Idealize.SL.Sem Idealize.ShloMosaic.ValueIdx
open Cert.ReferenceIdeal.Lay Cert.Decode Cert.Arr

variable (m : (ℓ : Loc nD τ sig) → Buf (Elt Ideal) ℓ) (ρ : Dev nD → PrngReg)

/-- Which node each edge lands on. -/
abbrev tgtK (c : Dev nD) : Fin 1700000 → Option (Fin 100000) := tgtOf 100000 (tgtC m c)
/-- Which node's row each edge reads. -/
abbrev rowK (c : Dev nD) : Fin 1700000 → Fin 100000 := rowOf 100000 nodes_pos (srcC m c)

/-- The result buffer as one composition of the array operations. -/
theorem result_eq (c : Dev nD) :
    (W6 m ρ c (Proc.devRef .tc main_v60) : S100000x64.Idx → EReal)
      = denseArr
          (aggArr nodes_pos (tgtC m c) (srcC m c) (nrmK m c)
            (reluArr (denseArr
              (aggArr nodes_pos (tgtC m c) (srcC m c) (nrmK m c) (m ((c : Thread nD τ).loc main_arg0)))
              (m ((c : Thread nD τ).loc main_arg2)) (m ((c : Thread nD τ).loc main_arg3)))))
          (m ((c : Thread nD τ).loc main_arg4)) (m ((c : Thread nD τ).loc main_arg5)) := by
  rw [W6_v60, Cert.KernelIdeal.KRegion1.value, V5_v59, V5_arg4, V5_arg5, W4_v46, Cert.KernelIdeal.KRegion0.value,
    V3_v45, V3_arg2, V3_arg3, agg128_eq, agg128_eq]

/-- THE KERNEL'S RESULT at node `i`, feature `j`. -/
theorem value (c : Dev nD) (i : Fin 100000) (j : Fin 64) :
    (W6 m ρ c (Proc.devRef .tc main_v60) : S100000x64.Idx → EReal) (ix2 i j)
      = Cert.Agg.dense
          (Cert.Agg.agg (tgtK m c) (rowK m c) (vec (nrmK m c))
            (Cert.Gcn.hiddenK (tgtK m c) (rowK m c) (vec (nrmK m c)) (mat (m ((c : Thread nD τ).loc main_arg0)))
              (mat (m ((c : Thread nD τ).loc main_arg2))) (vec (m ((c : Thread nD τ).loc main_arg3)))))
          (mat (m ((c : Thread nD τ).loc main_arg4))) (vec (m ((c : Thread nD τ).loc main_arg5))) i j := by
  rw [result_eq]
  rfl

end Cert.KernelIdeal.KValue

end
-- ==== Proof.RValue.lean ====
/-
  The reference's result, entry by entry, in the abstract form of Proof/Gcn.lean.

  Read one operation at a time, the reference's result at node `i`, output feature `j` is: the aggregate, over the
  edge list with its weights, of the product of the hidden layer with the second weight matrix, plus the second
  bias; and the hidden layer at node `i`, feature `h` is the rectified sum of the aggregate of `x · W1` and the first
  bias. The edge list's columns and weights are the reference's own stages of the edge array.
-/
import proofs.«402495_j66915590472502_4_alg».proof.Proof.RefRead
import proofs.«402495_j66915590472502_4_alg».proof.Proof.Layer
import proofs.«402495_j66915590472502_4_alg».proof.Proof.Gcn

noncomputable section

namespace Cert.ReferenceIdeal.RVal

open Cert.ReferenceIdeal Cert.ReferenceIdeal.Gen Cert.ReferenceIdeal.ReadP Cert.ReferenceIdeal.Lay
open Idealize.ShloMosaic Idealize.ShloMosaic.ValueIdx Cert.Decode Cert.Arr
open scoped BigOperators

variable (x0 : FVec Ideal S100000x128 .f32) (x1 : IVec S2x1600000 32) (x2 : FVec Ideal S128x128 .f32)
  (x3 : FVec Ideal S128 .f32) (x4 : FVec Ideal S128x64 .f32) (x5 : FVec Ideal S64 .f32)

/-- Which node each edge lands on: the scatter's column, read signed, dropped when outside the nodes. -/
abbrev tgtR : Fin 1700000 → Option (Fin 100000) := tgtOf 100000 (val_main_v44 (F := Ideal) x1)
/-- Which node's row each edge reads: the gather's column, read signed and clamped into the nodes. -/
abbrev rowR : Fin 1700000 → Fin 100000 := rowOf 100000 nodes_pos (val_main_v38 (F := Ideal) x1)
/-- The edge weights. -/
abbrev nrmR : Fin 1700000 → EReal := vec (val_main_v31 (F := Ideal) x1)

/-- The second layer's scatter column is the first layer's: the same operation on the same stage, printed twice. -/
theorem v62_eq : val_main_v62 (F := Ideal) x1 = val_main_v44 (F := Ideal) x1 := rfl

/-- The second layer's gather column is the first layer's: the same chain of operations, printed twice. -/
theorem v56_eq : val_main_v56 (F := Ideal) x1 = val_main_v38 (F := Ideal) x1 := rfl

/-- The first layer's scatter is the printed 128-wide aggregate of `x · W1`. -/
theorem v45_eq : val_main_v45 (F := Ideal) x0 x1 x2
    = agg128 (val_main_v44 (F := Ideal) x1) (val_main_v38 (F := Ideal) x1) (val_main_v31 (F := Ideal) x1)
        (val_main_v32 (F := Ideal) x0 x2) := rfl

/-- The second layer's scatter is the printed 64-wide aggregate of the second product. -/
theorem v63_eq : val_main_v63 (F := Ideal) x0 x1 x2 x3 x4
    = agg64 (val_main_v62 (F := Ideal) x1) (val_main_v56 (F := Ideal) x1) (val_main_v31 (F := Ideal) x1)
        (val_main_v50 (F := Ideal) x0 x1 x2 x3 x4) := rfl

/-! The composed indices of the layout stages, and the two products' operand indices, by coordinates. -/

theorem idx_v64_v65 (i : Fin 100000) (j : Fin 64) : idx_main_v64 (idx_main_v65 (ix2 i j)) = ix1 j :=
  funext fun a => match a with | ⟨0, _⟩ => rfl

theorem idx_v46_v47 (i : Fin 100000) (h : Fin 128) : idx_main_v46 (idx_main_v47 (ix2 i h)) = ix1 h :=
  funext fun a => match a with | ⟨0, _⟩ => rfl

theorem lidx_v50 (i : Fin 100000) (j : Fin 64) (h : Fin 128) : lidx_main_v50 (ix2 i j) h = ix2 i h :=
  funext fun a => match a with | ⟨0, _⟩ => rfl | ⟨1, _⟩ => rfl

theorem ridx_v50 (i : Fin 100000) (j : Fin 64) (h : Fin 128) : ridx_main_v50 (ix2 i j) h = ix2 h j :=
  funext fun a => match a with | ⟨0, _⟩ => rfl | ⟨1, _⟩ => rfl

theorem lidx_v32 (i : Fin 100000) (h : Fin 128) (k : Fin 128) : lidx_main_v32 (ix2 i h) k = ix2 i k :=
  funext fun a => match a with | ⟨0, _⟩ => rfl | ⟨1, _⟩ => rfl

theorem ridx_v32 (i : Fin 100000) (h : Fin 128) (k : Fin 128) : ridx_main_v32 (ix2 i h) k = ix2 k h :=
  funext fun a => match a with | ⟨0, _⟩ => rfl | ⟨1, _⟩ => rfl

/-- The second bias, broadcast to every row, read at node `i`, feature `j`. -/
theorem v65_read (i : Fin 100000) (j : Fin 64) : val_main_v65 (F := Ideal) x5 (ix2 i j) = vec x5 j := by
  rw [val_main_v65_apply, val_main_v64_apply, idx_v64_v65]

/-- The first bias, broadcast to every row, read at node `i`, feature `h`. -/
theorem v47_read (i : Fin 100000) (h : Fin 128) : val_main_v47 (F := Ideal) x3 (ix2 i h) = vec x3 h := by
  rw [val_main_v47_apply, val_main_v46_apply, idx_v46_v47]

/-- The rectifier's zero matrix is zero at every entry. -/
theorem relu_zero (i : Fin 100000) (h : Fin 128) : val_main_call1_v0 (F := Ideal) (ix2 i h) = (0 : EReal) := by
  rw [val_main_call1_v0_apply, val_main_call1_cst_apply, Ideal.ofBits_def, Ideal.ofBits_zero_f32]

/-- The first product, entry by entry: `x · W1`. -/
theorem v32_mat : mat (val_main_v32 (F := Ideal) x0 x2) = fun i h => ∑ k : Fin 128, mat x0 i k * mat x2 k h := by
  funext i h
  show val_main_v32 (F := Ideal) x0 x2 (ix2 i h) = _
  rw [val_main_v32_apply]
  refine Finset.sum_congr rfl fun k _ => ?_
  rw [lidx_v32, ridx_v32]

/-- The first layer's scatter, read: the aggregate of `x · W1`. -/
theorem v45_read (i : Fin 100000) (h : Fin 128) :
    val_main_v45 (F := Ideal) x0 x1 x2 (ix2 i h)
      = Cert.Agg.agg (tgtR x1) (rowR x1) (nrmR x1) (fun i h => ∑ k : Fin 128, mat x0 i k * mat x2 k h) i h := by
  rw [v45_eq, agg128_eq, aggArr_apply, v32_mat]

/-- The hidden layer, read: the rectified sum of the aggregate of `x · W1` and the first bias. -/
theorem v49_read (i : Fin 100000) (h : Fin 128) :
    val_main_v49 (F := Ideal) x0 x1 x2 x3 (ix2 i h)
      = Cert.Gcn.hiddenR (tgtR x1) (rowR x1) (nrmR x1) (mat x0) (mat x2) (vec x3) i h := by
  rw [val_main_v49_apply, Ideal.maximumf_def, relu_zero, val_main_v48_apply, Ideal.addf_def, v45_read, v47_read]
  rfl

/-- The second product, entry by entry: the hidden layer times `W2`. -/
theorem v50_mat : mat (val_main_v50 (F := Ideal) x0 x1 x2 x3 x4)
    = fun i j => ∑ h : Fin 128,
        Cert.Gcn.hiddenR (tgtR x1) (rowR x1) (nrmR x1) (mat x0) (mat x2) (vec x3) i h * mat x4 h j := by
  funext i j
  show val_main_v50 (F := Ideal) x0 x1 x2 x3 x4 (ix2 i j) = _
  rw [val_main_v50_apply]
  refine Finset.sum_congr rfl fun h _ => ?_
  rw [lidx_v50, ridx_v50, v49_read]

/-- The second layer's scatter, read: the aggregate of the second product. -/
theorem v63_read (i : Fin 100000) (j : Fin 64) :
    val_main_v63 (F := Ideal) x0 x1 x2 x3 x4 (ix2 i j)
      = Cert.Agg.agg (tgtR x1) (rowR x1) (nrmR x1)
          (fun i j => ∑ h : Fin 128,
            Cert.Gcn.hiddenR (tgtR x1) (rowR x1) (nrmR x1) (mat x0) (mat x2) (vec x3) i h * mat x4 h j) i j := by
  rw [v63_eq, v62_eq, v56_eq, agg64_eq, aggArr_apply, v50_mat]

/-- THE REFERENCE'S RESULT at node `i`, feature `j`. -/
theorem value (i : Fin 100000) (j : Fin 64) :
    val_main_v66 (F := Ideal) x0 x1 x2 x3 x4 x5 (ix2 i j)
      = Cert.Agg.agg (tgtR x1) (rowR x1) (nrmR x1)
          (fun i j => ∑ h : Fin 128,
            Cert.Gcn.hiddenR (tgtR x1) (rowR x1) (nrmR x1) (mat x0) (mat x2) (vec x3) i h * mat x4 h j) i j
        + vec x5 j := by
  rw [val_main_v66_apply, Ideal.addf_def, v63_read, v65_read]

end Cert.ReferenceIdeal.RVal

end
-- ==== Proof.Finite.lean ====
/-
  From the precondition to finiteness. The precondition `finite_inputs` says, of each float argument, that the
  absolute value of every entry compares below `+∞`, all entries and all arguments folded by `and`. At the ideal
  instance an entry is an extended real, and "its absolute value is below +∞" says exactly that it is a finite real.
-/
import proofs.«402495_j66915590472502_4_alg».proof.Pre_finite_inputs
import proofs.«402495_j66915590472502_4_alg».proof.Proof.LibReal
import Idealize.ShloMosaic.PureOps.Ideal
import Idealize.ShloMosaic.Lib.ReduceAll
import Idealize.ShloMosaic.Lib.ValueIdx

noncomputable section

namespace Cert.Finite

open Idealize.ShloMosaic Cert.LibReal Cert.Pre_finite_inputs

/-- A comparison "strictly below" of two extended reals that came out as the bit one says the first is below the second. -/
theorem lt_of_cmp_olt {a b : EReal} (h : Ideal.cmp .olt a b = 1#1) : a < b := by
  unfold Ideal.cmp at h
  by_contra hn
  simp [hn] at h

/-- One argument's share of the precondition: if the fold by `and`, over all entries, of "the absolute value of the
    entry is below the word `0x7F800000`" is the bit one, every entry is a finite real. The word denotes `+∞`, the
    absolute value of `x` is `max x (-x)`, and an extended real with `max x (-x) < ⊤` is neither infinity. -/
theorem all_real {s : Shape} {axes : List (Fin s.rank)} (x : FVec Ideal s .f32)
    (bc : S_.BroadcastsInDim s (![] : Fin 0 → Fin s.rank)) (rd : s.ReducesTo axes S_) (hu : 0 < S_.numel)
    (e : Host.reduce IntOp.andi (cmpf .olt (Host.absf x) (broadcastInDim s ![] bc (constant S_ .f32 0x7F800000#32)))
      (constantI S_ 1 1#1) rd hu ValueIdx.ix0 = 1#1) (i : s.Idx) : IsReal (x i) := by
  haveI : Subsingleton S_.Idx := ⟨fun a b => funext fun d => d.elim0⟩
  have h := Host.reduce_andi_all _ _ rd hu ValueIdx.ix0 e i
  change Ideal.cmp .olt (Max.max (x i) (-(x i))) (Ideal.ofBits .f32 0x7F800000#32) = 1#1 at h
  rw [ofBits_pos_inf] at h
  exact isReal_of_abs_lt_top (lt_of_cmp_olt h)

variable [hP : Cert.Pre_finite_inputs.Facts]

/-- Where the precondition holds (its one-element result is the bit one), every entry of every float argument is a
    finite real. -/
theorem of_pre (a0 : FVec Ideal S100000x128 .f32) (a1 : IVec S2x1600000 32) (a2 : FVec Ideal S128x128 .f32)
    (a3 : FVec Ideal S128 .f32) (a4 : FVec Ideal S128x64 .f32) (a5 : FVec Ideal S64 .f32)
    (h : Cert.Pre_finite_inputs.fn (F := Ideal) a0 a1 a2 a3 a4 a5 = fun _ => 1#1) :
    (∀ i, IsReal (a0 i)) ∧ (∀ i, IsReal (a2 i)) ∧ (∀ i, IsReal (a3 i)) ∧ (∀ i, IsReal (a4 i)) ∧ (∀ i, IsReal (a5 i)) := by
  have h0 := congrFun h ValueIdx.ix0
  dsimp only [Cert.Pre_finite_inputs.fn, Cert.Pre_finite_inputs.fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨all_real a0 _ _ _ e0, all_real a2 _ _ _ e2, all_real a3 _ _ _ e3, all_real a4 _ _ _ e4, all_real a5 _ _ _ e5⟩

end Cert.Finite

end
-- ==== Proof.lean ====
/-
  A two-layer graph convolution (self loops added, symmetric square-root-degree edge weights), kernel against reference.

  Both programs weight edge `e` by `norm e = dinv[src e] · dinv[dst e]` and AGGREGATE a node-feature matrix over the
  edges: row `i` of the aggregate is the sum over the edges landing on node `i` of the source node's row times the
  weight. The reference's layer is `aggregate (X · W) + b`; the kernel's is `aggregate X · W + b`, the product and the
  bias (and, in the first layer, the rectifier) done by a Pallas call tiled over blocks of 1000 nodes. The two agree
  because aggregating commutes with the matrix product: distributivity and an exchange of two finite sums, which
  hold of finite reals, and the precondition makes every float input finite while the weights are finite by
  construction (Proof/Norm.lean; the kernel counts the degrees in 32-bit integers, the reference in floats: the same
  real numbers). The hidden layer is the same finite matrix on both sides, so the second layers agree by the same
  law (Proof/Gcn.lean).

  The kernel's run with its result named is Proof/KRun.lean; its result buffer read as array operations
  Proof/KValue.lean (the host stretches in Proof/KHost.lean, each region's array in Proof/KRegion0.lean and
  Proof/KRegion1.lean); the reference's run and its stages Proof/RefRun.lean and Proof/RefRead.lean, its result read
  entry by entry Proof/RValue.lean.
-/
import proofs.«402495_j66915590472502_4_alg».proof.Defs
import proofs.«402495_j66915590472502_4_alg».proof.Proof.Gen.Kernel
import proofs.«402495_j66915590472502_4_alg».proof.Proof.Gen.Kernel.Frame
import proofs.«402495_j66915590472502_4_alg».proof.Proof.Gen.KernelIdeal
import proofs.«402495_j66915590472502_4_alg».proof.Proof.Gen.KernelIdeal.Frame
import proofs.«402495_j66915590472502_4_alg».proof.Proof.Gen.ReferenceIdeal
import proofs.«402495_j66915590472502_4_alg».proof.Proof.Gen.Pre_finite_inputs
import proofs.«402495_j66915590472502_4_alg».proof.Proof.RefRun
import proofs.«402495_j66915590472502_4_alg».proof.Proof.RefRead
import proofs.«402495_j66915590472502_4_alg».proof.Proof.KRun
import proofs.«402495_j66915590472502_4_alg».proof.Proof.KValue
import proofs.«402495_j66915590472502_4_alg».proof.Proof.RValue
import proofs.«402495_j66915590472502_4_alg».proof.Proof.Norm
import proofs.«402495_j66915590472502_4_alg».proof.Proof.Finite
import proofs.«402495_j66915590472502_4_alg».proof.Proof.Gcn
import Idealize.ShloMosaic.Adequacy
import Idealize.ShloMosaic.Init

noncomputable section

namespace Cert.Proof

open Idealize.ShloMosaic Idealize.ShloMosaic.TcCoe Idealize.SL.Sem Idealize.ShloMosaic.ValueIdx
open Cert.Arr Cert.LibReal

/-- THE TWO RESULTS ARE ONE ARRAY. Where the precondition holds of the kernel's launch memory, the kernel's result
    buffer is the reference's result term of the same argument arrays: entry by entry, the two-layer law on finite
    inputs, with the kernel's edge weights rewritten to the reference's. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) = fun _ => 1#1) :
    (Cert.KernelIdeal.Gen.W6 m ρ c (Proc.devRef .tc Cert.KernelIdeal.main_v60) : Cert.KernelIdeal.S100000x64.Idx → EReal)
      = Cert.ReferenceIdeal.ReadP.val_main_v66 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  obtain ⟨h0, h2, h3, h4, h5⟩ := Cert.Finite.of_pre _ _ _ _ _ _ hpre
  funext y
  obtain ⟨i, j, rfl⟩ : ∃ (i : Fin 100000) (j : Fin 64), y = ix2 i j := ⟨y 0, y 1, eq_ix2 y⟩
  rw [Cert.KernelIdeal.KValue.value, Cert.ReferenceIdeal.RVal.value]
  have hn : Cert.KernelIdeal.KHost.nrmK m c
      = Cert.ReferenceIdeal.ReadP.val_main_v31 (F := Ideal) (Cert.KernelIdeal.KHost.ei m c) :=
    Cert.ReferenceIdeal.Nrm.knorm_eq _
  rw [hn]
  exact (Cert.Gcn.two_layers _ _ _ (fun i k => h0 (ix2 i k)) (fun k h => h2 (ix2 k h)) (fun h => h3 (ix1 h))
    (fun h j => h4 (ix2 h j)) (fun e => Cert.ReferenceIdeal.Nrm.isReal_norm _ (ix1 e)) i j).symm

/-- The word-level kernel's frame: generated. -/
theorem frame_K : Cert.frame_Kernel := fun m ρ _ => Cert.Kernel.Gen.frame m ρ

/-- The idealized kernel's frame: generated. -/
theorem frame_KI : Cert.frame_KernelIdeal := fun m ρ _ => Cert.KernelIdeal.Gen.frame m ρ

/-- The reference's frame: its run with the result dropped. -/
theorem frame_RI : Cert.frame_ReferenceIdeal := fun m ρ _ =>
  (θ_run Cert.ReferenceIdeal.defs _ _).mono (fun _ h c => (h c).2) (Cert.ReferenceIdeal.RunP.run (F := Ideal) m ρ)

/-- The ideal pass rewrote nothing. -/
theorem preserves : Cert.preserves_Kernel_KernelIdeal := trivial

/-- Both programs run, from memories agreeing on the arguments, to the same result array: the kernel's run names its
    result buffer's contents, the reference's run ends at its composed term of its own arguments, which agree with
    the kernel's, and the two are equal by `result_eq`. -/
theorem algebraic : Cert.algebraic_KernelIdeal_ReferenceIdeal := by
  intro m ρ m' ρ' hpre hagree
  refine ⟨fun c => Cert.KernelIdeal.Gen.W6 m ρ c (Proc.devRef .tc Cert.KernelIdeal.main_v60),
    Cert.KernelIdeal.KRun.run_named m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v66_eq, (hagree c).1, (hagree c).2.1, (hagree c).2.2.1, (hagree c).2.2.2.1,
    (hagree c).2.2.2.2.1, (hagree c).2.2.2.2.2]
  exact (result_eq m ρ c (hpre c)).symm

theorem claim : Cert.Claim :=
  ⟨Cert.Kernel.Gen.facts, Cert.KernelIdeal.Gen.facts, Cert.ReferenceIdeal.Gen.facts, Cert.Pre_finite_inputs.Gen.facts,
    frame_K, frame_KI, frame_RI, preserves, algebraic⟩

end Cert.Proof

end
